-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S1 : Shape := ⟨1, ![1]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1 : S_.BroadcastsInDim S1 (![] : Fin 0 → Fin S1.rank)
  reducesTo_S1_S_d0 : S1.ReducesTo [0] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_v13 : IVec S_ 1) (main_v15 : IVec S131072 1) (main_c_5 : IVec S_ 32) : IVec S_ 1 :=
  let main_v16 : IVec S131072 32 := broadcastInDim S131072 ![] bcast_S_S131072 main_c_5
  let main_v17 : IVec S131072 1 := cmpi .slt main_arg1 main_v16
  let main_v18 : IVec S131072 1 := andi main_v15 main_v17
  let main_c_6 : IVec S_ 1 := constantI S_ 1 1#1
  let main_v19 : IVec S_ 1 := (fun x v => Host.reduce IntOp.andi x v reducesTo_S131072_S_d0 h_S_) main_v18 main_c_6
  let main_v20 : IVec S_ 1 := andi main_v13 main_v19
  main_v20

def fn {F : FTy → Type} [FloatOps F] (main_arg0 : FVec F S131072x256 .f32) (main_arg1 : IVec S131072 32) (main_arg2 : FVec F S1 .f32) (main_arg3 : FVec F S1 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg1 main_v14
  let main_c_5 : IVec S_ 32 := constantI S_ 32 64#32
  fn_part1 (F := F) main_arg1 main_v13 main_v15 main_c_5
-- ==== Kernel.lean ====
abbrev S131072x256 : Shape := ⟨2, ![131072, 256]⟩
abbrev S131072 : Shape := ⟨1, ![131072]⟩
abbrev S1 : Shape := ⟨1, ![1]⟩
abbrev S128x256 : Shape := ⟨2, ![128, 256]⟩
abbrev S128x128 : Shape := ⟨2, ![128, 128]⟩
abbrev S131072x1 : Shape := ⟨2, ![131072, 1]⟩
abbrev S8192x256 : Shape := ⟨2, ![8192, 256]⟩
abbrev S8192 : Shape := ⟨1, ![8192]⟩
abbrev S64x256 : Shape := ⟨2, ![64, 256]⟩
abbrev S64x128 : Shape := ⟨2, ![64, 128]⟩
abbrev S8192x1 : Shape := ⟨2, ![8192, 1]⟩
abbrev S64x8192 : Shape := ⟨2, ![64, 8192]⟩
abbrev S1x8192 : Shape := ⟨2, ![1, 8192]⟩
abbrev S64 : Shape := ⟨1, ![64]⟩
abbrev S64x1 : Shape := ⟨2, ![64, 1]⟩
abbrev S2x64x256 : Shape := ⟨3, ![2, 64, 256]⟩
abbrev S_ : Shape := ⟨0, ![]⟩
abbrev S2x64x128 : Shape := ⟨3, ![2, 64, 128]⟩
abbrev S1x256 : Shape := ⟨2, ![1, 256]⟩
abbrev S256 : Shape := ⟨1, ![256]⟩
abbrev S1x1 : Shape := ⟨2, ![1, 1]⟩

abbrev nBuf : Space → Nat
  | .hbm => 66
  | .vmem => 15
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S1, .f32⟩
  | .hbm, ⟨3, _⟩ => ⟨S1, .f32⟩
  | .hbm, ⟨4, _⟩ => ⟨S128x256, .f32⟩
  | .hbm, ⟨5, _⟩ => ⟨S128x128, .f32⟩
  | .hbm, ⟨6, _⟩ => ⟨S131072x1, .f32⟩
  | .hbm, ⟨7, _⟩ => ⟨S2x64x256, .f32⟩
  | .hbm, ⟨8, _⟩ => ⟨S_, .f32⟩
  | .hbm, ⟨9, _⟩ => ⟨S64x256, .f32⟩
  | .hbm, ⟨10, _⟩ => ⟨S2x64x128, .f32⟩
  | .hbm, ⟨11, _⟩ => ⟨S_, .f32⟩
  | .hbm, ⟨12, _⟩ => ⟨S64x128, .f32⟩
  | .hbm, ⟨13, _⟩ => ⟨S64x1, .f32⟩
  | .hbm, ⟨14, _⟩ => ⟨S1x256, .f32⟩
  | .hbm, ⟨15, _⟩ => ⟨S256, .f32⟩
  | .hbm, ⟨16, _⟩ => ⟨S_, .f32⟩
  | .hbm, ⟨17, _⟩ => ⟨S64x1, .f32⟩
  | .hbm, ⟨18, _⟩ => ⟨S64x1, .i1⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x256, .f32⟩
  | .hbm, ⟨23, _⟩ => ⟨S64x256, .f32⟩
  | .hbm, ⟨24, _⟩ => ⟨S1x256, .f32⟩
  | .hbm, ⟨25, _⟩ => ⟨S64x256, .i1⟩
  | .hbm, ⟨26, _⟩ => ⟨S64x256, .f32⟩
  | .hbm, ⟨27, _⟩ => ⟨S64x256, .f32⟩
  | .hbm, ⟨28, _⟩ => ⟨S_, .f32⟩
  | .hbm, ⟨29, _⟩ => ⟨S_, .f32⟩
  | .hbm, ⟨30, _⟩ => ⟨S64, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S_, .f32⟩
  | .hbm, ⟨38, _⟩ => ⟨S64x1, .f32⟩
  | .hbm, ⟨39, _⟩ => ⟨S64x1, .f32⟩
  | .hbm, ⟨40, _⟩ => ⟨S64, .f32⟩
  | .hbm, ⟨41, _⟩ => ⟨S_, .i32⟩
  | .hbm, ⟨42, _⟩ => ⟨S131072, .i32⟩
  | .hbm, ⟨43, _⟩ => ⟨S131072, .i1⟩
  | .hbm, ⟨44, _⟩ => ⟨S_, .i32⟩
  | .hbm, ⟨45, _⟩ => ⟨S131072, .i32⟩
  | .hbm, ⟨46, _⟩ => ⟨S131072, .i32⟩
  | .hbm, ⟨47, _⟩ => ⟨S131072, .i32⟩
  | .hbm, ⟨48, _⟩ => ⟨S131072x1, .i32⟩
  | .hbm, ⟨49, _⟩ => ⟨S1, .i32⟩
  | .hbm, ⟨50, _⟩ => ⟨S_, .i32⟩
  | .hbm, ⟨51, _⟩ => ⟨S131072x1, .i32⟩
  | .hbm, ⟨52, _⟩ => ⟨S131072x1, .i1⟩
  | .hbm, ⟨53, _⟩ => ⟨S1x1, .i32⟩
  | .hbm, ⟨54, _⟩ => ⟨S131072x1, .i32⟩
  | .hbm, ⟨55, _⟩ => ⟨S131072x1, .i1⟩
  | .hbm, ⟨56, _⟩ => ⟨S131072x1, .i1⟩
  | .hbm, ⟨57, _⟩ => ⟨S_, .i1⟩
  | .hbm, ⟨58, _⟩ => ⟨S131072, .i1⟩
  | .hbm, ⟨59, _⟩ => ⟨S131072, .f32⟩
  | .hbm, ⟨60, _⟩ => ⟨S_, .f32⟩
  | .hbm, ⟨61, _⟩ => ⟨S131072, .f32⟩
  | .hbm, ⟨62, _⟩ => ⟨S131072, .f32⟩
  | .hbm, ⟨63, _⟩ => ⟨S131072x1, .f32⟩
  | .hbm, ⟨64, _⟩ => ⟨S131072x1, .f32⟩
  | .hbm, ⟨65, _⟩ => ⟨S131072x256, .f32⟩
  | .local _ .vmem, ⟨0, _⟩ => ⟨S8192x256, .f32⟩
  | .local _ .vmem, ⟨1, _⟩ => ⟨S8192x256, .f32⟩
  | .local _ .vmem, ⟨2, _⟩ => ⟨S8192, .i32⟩
  | .local _ .vmem, ⟨3, _⟩ => ⟨S8192, .i32⟩
  | .local _ .vmem, ⟨4, _⟩ => ⟨S64x256, .f32⟩
  | .local _ .vmem, ⟨5, _⟩ => ⟨S64x256, .f32⟩
  | .local _ .vmem, ⟨6, _⟩ => ⟨S64x128, .f32⟩
  | .local _ .vmem, ⟨7, _⟩ => ⟨S64x128, .f32⟩
  | .local _ .vmem, ⟨8, _⟩ => ⟨S8192x1, .f32⟩
  | .local _ .vmem, ⟨9, _⟩ => ⟨S8192x1, .f32⟩
  | .local _ .vmem, ⟨10, _⟩ => ⟨S8192x1, .f32⟩
  | .local _ .vmem, ⟨11, _⟩ => ⟨S8192x1, .f32⟩
  | .local _ .vmem, ⟨12, _⟩ => ⟨S1, .f32⟩
  | .local _ .vmem, ⟨13, _⟩ => ⟨S8192x256, .f32⟩
  | .local _ .vmem, ⟨14, _⟩ => ⟨S8192x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call1_cst : Ref sig .tc := ⟨.hbm, 34, rfl⟩
abbrev main_call1_v0 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S64x256_S64x256_0_0 : ∀ a, (![0, 0] : Fin 2 → Nat) a + S64x256.size a ≤ S64x256.size a
  h_S64x256 : 0 < S64x256.numel
  inb_S64x128_S64x128_0_0 : ∀ a, (![0, 0] : Fin 2 → Nat) a + S64x128.size a ≤ S64x128.size a
  h_S64x128 : 0 < S64x128.numel
  inb_S8192_S8192_0 : ∀ a, (![0] : Fin 1 → Nat) a + S8192.size a ≤ S8192.size a
  h_S8192 : 0 < S8192.numel
  iota_S64x8192_d0_w32 : S64x8192.Iotas .tc 32 [0]
  shapeCasts_S8192_S1x8192 : S8192.ShapeCasts S1x8192
  broadcasts_S1x8192_S64x8192 : S1x8192.Broadcasts S64x8192
  natLt_1_32 : 1 < 32
  inb_S8192x256_S8192x256_0_0 : ∀ a, (![0, 0] : Fin 2 → Nat) a + S8192x256.size a ≤ S8192x256.size a
  h_S8192x256 : 0 < S8192x256.numel
  shapeCasts_S64x256_S64x256 : S64x256.ShapeCasts S64x256
  reduces_S64x8192_S64 : S64x8192.Reduces [1] S64
  shapeCasts_S64_S64x1 : S64.ShapeCasts S64x1
  shapeCasts_S64x128_S64x128 : S64x128.ShapeCasts S64x128
  shapeCasts_S64x1_S64x1 : S64x1.ShapeCasts S64x1
  broadcasts_S64x1_S64x128 : S64x1.Broadcasts S64x128
  reduces_S8192x256_S8192 : S8192x256.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S128x256_S2x64x256 : S128x256.ShapeCasts S2x64x256
  reducesTo_S2x64x256_S64x256_d0 : S2x64x256.ReducesTo [0] S64x256
  h_S_ : 0 < S_.numel
  shapeCasts_S128x128_S2x64x128 : S128x128.ShapeCasts S2x64x128
  reducesTo_S2x64x128_S64x128_d0 : S2x64x128.ReducesTo [0] S64x128
  slices_S64x128_S64x1_0_0 : S64x128.Slices ![0, 0] S64x1
  slices_S131072x256_S1x256_0_0 : S131072x256.Slices ![0, 0] S1x256
  shapeCasts_S1x256_S256 : S1x256.ShapeCasts S256
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  shapeCasts_S1_S_ : S1.ShapeCasts S_
  reducesTo_S64x256_S64_d1 : S64x256.ReducesTo [1] S64
  bcast_S64_S64x1_0 : S64.BroadcastsInDim S64x1 (![0] : Fin 1 → Fin S64x1.rank)
  shapeCasts_S64x1_S64 : S64x1.ShapeCasts S64
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  shapeCasts_S8192x1_S8192x1 : S8192x1.ShapeCasts S8192x1
  inb_S1_S1_0 : ∀ a, (![0] : Fin 1 → Nat) a + S1.size a ≤ S1.size a
  h_S1 : 0 < S1.numel
  inpos_S1_p0 : ∀ a, (![0] : Fin 1 → Nat) a < S1.size a
  broadcasts_S8192x1_S8192x256 : S8192x1.Broadcasts S8192x256
  dot_S64x8192_S8192x256_S64x256_1_0_0_1_n_n_wf : DotDims.WF S64x8192 S8192x256 S64x256 [1] [0] [0] [1] [] []
  gather_S64_S131072x1_S131072_n_0_n_n_0_1_1_wf : GatherDims.WF S64 S131072x1 S131072 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S131072.size a
  hwx0_1 : ∀ i : grid0.Coords, EltTy.bits .i32 = 32 ∨ (Rect.block (s := S131072) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S128x256.size a
  hwx0_2 : ∀ i : grid0.Coords, EltTy.bits .f32 = 32 ∨ (Rect.block (s := S128x256) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S128x128.size a
  hwx0_3 : ∀ i : grid0.Coords, EltTy.bits .f32 = 32 ∨ (Rect.block (s := S128x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x1.size a ≤ S131072x1.size a
  hwx0_4 : ∀ i : grid0.Coords, EltTy.bits .f32 = 32 ∨ (Rect.block (s := S131072x1) S8192x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x1.size a ≤ S131072x1.size a
  hwx1_0 : ∀ i : grid1.Coords, EltTy.bits .f32 = 32 ∨ (Rect.block (s := S131072x1) S8192x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1.size a ≤ S1.size a
  hwx1_1 : ∀ i : grid1.Coords, EltTy.bits .f32 = 32 ∨ (Rect.block (s := S1) S1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S131072x256.size a
  hwx1_2 : ∀ i : grid1.Coords, EltTy.bits .f32 = 32 ∨ (Rect.block (s := S131072x256) S8192x256.size (cc1_transform_2 i) (hinb1_2 i)).WholeWords (EltTy.packing .f32)

variable [Facts₀]

def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf
def gather_S64_S131072x1_S131072_n_0_n_n_0_1_1 : GatherDims S64 S131072x1 S131072 where
  offsetDims := []
  collapsedSliceDims := [0]
  operandBatchingDims := []
  startIndicesBatchingDims := []
  startIndexMap := [0]
  indexVectorDim := 1
  sliceSizes := ![1]
  wf := gather_S64_S131072x1_S131072_n_0_n_n_0_1_1_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S64x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S64x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8192x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S8192x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S8192x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S131072x256 : Shape := ⟨2, ![131072, 256]⟩
abbrev S131072 : Shape := ⟨1, ![131072]⟩
abbrev S1 : Shape := ⟨1, ![1]⟩
abbrev S_ : Shape := ⟨0, ![]⟩
abbrev S64x256 : Shape := ⟨2, ![64, 256]⟩
abbrev S131072x1 : Shape := ⟨2, ![131072, 1]⟩
abbrev S64 : Shape := ⟨1, ![64]⟩
abbrev S64x1 : Shape := ⟨2, ![64, 1]⟩
abbrev S1x256 : Shape := ⟨2, ![1, 256]⟩
abbrev S256 : Shape := ⟨1, ![256]⟩
abbrev S64x128 : Shape := ⟨2, ![64, 128]⟩
abbrev S131072x128 : Shape := ⟨2, ![131072, 128]⟩
abbrev S131072x384 : Shape := ⟨2, ![131072, 384]⟩

abbrev nBuf : Space → Nat
  | .hbm => 59
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S64x256, .f32⟩
  | .hbm, ⟨6, _⟩ => ⟨S131072x1, .i32⟩
  | .hbm, ⟨7, _⟩ => ⟨S64x256, .f32⟩
  | .hbm, ⟨8, _⟩ => ⟨S_, .f32⟩
  | .hbm, ⟨9, _⟩ => ⟨S131072, .f32⟩
  | .hbm, ⟨10, _⟩ => ⟨S_, .f32⟩
  | .hbm, ⟨11, _⟩ => ⟨S64, .f32⟩
  | .hbm, ⟨12, _⟩ => ⟨S131072x1, .i32⟩
  | .hbm, ⟨13, _⟩ => ⟨S64, .f32⟩
  | .hbm, ⟨14, _⟩ => ⟨S64x1, .f32⟩
  | .hbm, ⟨15, _⟩ => ⟨S_, .f32⟩
  | .hbm, ⟨16, _⟩ => ⟨S64x1, .f32⟩
  | .hbm, ⟨17, _⟩ => ⟨S64x1, .i1⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x256, .f32⟩
  | .hbm, ⟨22, _⟩ => ⟨S64x256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S64x256, .i1⟩
  | .hbm, ⟨27, _⟩ => ⟨S64x256, .f32⟩
  | .hbm, ⟨28, _⟩ => ⟨S64x256, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64x1, .f32⟩
  | .hbm, ⟨33, _⟩ => ⟨S64x1, .f32⟩
  | .hbm, ⟨34, _⟩ => ⟨S64x1, .f32⟩
  | .hbm, ⟨35, _⟩ => ⟨S_, .f32⟩
  | .hbm, ⟨36, _⟩ => ⟨S64x1, .f32⟩
  | .hbm, ⟨37, _⟩ => ⟨S64x1, .f32⟩
  | .hbm, ⟨38, _⟩ => ⟨S64x128, .f32⟩
  | .hbm, ⟨39, _⟩ => ⟨S_, .i32⟩
  | .hbm, ⟨40, _⟩ => ⟨S131072, .i32⟩
  | .hbm, ⟨41, _⟩ => ⟨S131072, .i1⟩
  | .hbm, ⟨42, _⟩ => ⟨S_, .i32⟩
  | .hbm, ⟨43, _⟩ => ⟨S131072, .i32⟩
  | .hbm, ⟨44, _⟩ => ⟨S131072, .i32⟩
  | .hbm, ⟨45, _⟩ => ⟨S131072, .i32⟩
  | .hbm, ⟨46, _⟩ => ⟨S131072x1, .i32⟩
  | .hbm, ⟨47, _⟩ => ⟨S131072x128, .f32⟩
  | .hbm, ⟨48, _⟩ => ⟨S131072x384, .f32⟩
  | .hbm, ⟨49, _⟩ => ⟨S_, .f32⟩
  | .hbm, ⟨50, _⟩ => ⟨S_, .f32⟩
  | .hbm, ⟨51, _⟩ => ⟨S131072, .f32⟩
  | .hbm, ⟨52, _⟩ => ⟨S131072x1, .f32⟩
  | .hbm, ⟨53, _⟩ => ⟨S131072x1, .f32⟩
  | .hbm, ⟨54, _⟩ => ⟨S131072x1, .f32⟩
  | .hbm, ⟨55, _⟩ => ⟨S_, .f32⟩
  | .hbm, ⟨56, _⟩ => ⟨S131072x1, .f32⟩
  | .hbm, ⟨57, _⟩ => ⟨S131072x1, .f32⟩
  | .hbm, ⟨58, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_cst : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call2_cst : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  slices_S131072x256_S1x256_0_0 : S131072x256.Slices ![0, 0] S1x256
  shapeCasts_S1x256_S256 : S1x256.ShapeCasts S256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  shapeCasts_S1_S_ : S1.ShapeCasts S_
  reducesTo_S64x256_S64_d1 : S64x256.ReducesTo [1] S64
  h_S_ : 0 < S_.numel
  bcast_S64x1_S64x128_0_1 : S64x1.BroadcastsInDim S64x128 (![0, 1] : Fin 2 → Fin S64x128.rank)
  concatenates_S131072x256_S131072x128_S131072x384_d1 : Shape.Concatenates [S131072x256, S131072x128] S131072x384 1
  reducesTo_S131072x384_S131072_d1 : S131072x384.ReducesTo [1] S131072
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  scatter_S64x256_S131072x1_S131072x256_1_0_0_1_wf : ScatterDims.WF S64x256 S131072x1 S131072x256 [1] [0] [0] 1
  scatter_S64_S131072x1_S131072_n_0_0_1_wf : ScatterDims.WF S64 S131072x1 S131072 [] [0] [0] 1
  gather_S64x128_S131072x1_S131072x128_1_0_n_n_0_1_1128_wf : GatherDims.WF S64x128 S131072x1 S131072x128 [1] [0] [] [0] [] 1 ![1, 128]

variable [Facts₀]

def scatter_S64x256_S131072x1_S131072x256_1_0_0_1 : ScatterDims S64x256 S131072x1 S131072x256 where
  updateWindowDims := [1]
  insertedWindowDims := [0]
  scatterDimsToOperandDims := [0]
  indexVectorDim := 1
  wf := scatter_S64x256_S131072x1_S131072x256_1_0_0_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def gather_S64x128_S131072x1_S131072x128_1_0_n_n_0_1_1128 : GatherDims S64x128 S131072x1 S131072x128 where
  offsetDims := [1]
  collapsedSliceDims := [0]
  operandBatchingDims := []
  startIndicesBatchingDims := []
  startIndexMap := [0]
  indexVectorDim := 1
  sliceSizes := ![1, 128]
  wf := gather_S64x128_S131072x1_S131072x128_1_0_n_n_0_1_1128_wf

class Facts : Prop extends Facts₀ where

variable [Facts]
-- ==== Proof.KArrays.lean ====
/-
  The arrays the kernel-side value lemmas speak of, each named at its literal type: the four arguments as launched,
  the first kernel call's three results as the host operations find them, the per-row total and the scale as the
  second call finds them, and the result after the run.
-/
import proofs.«405188_j45363444580781_3_alg».proof.Proof.Gen.KernelIdeal.Frame
import Idealize.ShloMosaic.PureOps.Ideal

noncomputable section

open Idealize.ShloMosaic Idealize.ShloMosaic.TcCoe Idealize.SL.Sem

namespace Cert.KernelIdeal.Arr

open Cert.KernelIdeal Cert.KernelIdeal.Gen

variable (m : (ℓ : Loc nD τ sig) → Buf (Elt Ideal) ℓ) (ρ : Dev nD → PrngReg)

/-- `x` as launched. -/
abbrev xArr (c : Dev nD) : S131072x256.Idx → EReal := m ((c : Thread nD τ).loc main_arg0)
/-- The group words as launched. -/
abbrev subArr (c : Dev nD) : S131072.Idx → BitVec 32 := m ((c : Thread nD τ).loc main_arg1)
/-- `Gamma` as launched. -/
abbrev gamArr (c : Dev nD) : S1.Idx → EReal := m ((c : Thread nD τ).loc main_arg2)
/-- `Lambda` as launched. -/
abbrev lamArr (c : Dev nD) : S1.Idx → EReal := m ((c : Thread nD τ).loc main_arg3)
/-- The two halves' partial group sums after the first call. -/
abbrev sumsArr (c : Dev nD) : S128x256.Idx → EReal := W1 m ρ c (Proc.devRef .tc main_v0_0)
/-- The two halves' partial group counts after the first call. -/
abbrev cntArr (c : Dev nD) : S128x128.Idx → EReal := W1 m ρ c (Proc.devRef .tc main_v0_1)
/-- Each row's own sum after the first call. -/
abbrev rowArr (c : Dev nD) : S131072x1.Idx → EReal := W1 m ρ c (Proc.devRef .tc main_v0_2)
/-- The per-row total the second call reads. -/
abbrev totalArr (c : Dev nD) : S131072x1.Idx → EReal := V8 m ρ c main_v27
/-- `Lambda` as the second call reads it. -/
abbrev lam8Arr (c : Dev nD) : S1.Idx → EReal := V8 m ρ c main_arg3
/-- The result after the run. -/
abbrev outArr (c : Dev nD) : S131072x256.Idx → EReal := W9 m ρ c (Proc.devRef .tc main_v28)

end Cert.KernelIdeal.Arr

end
-- ==== Proof.Spec.lean ====
/-
  The function both programs compute, over the extended reals, one row at a time.

  Every row `n` of `x` belongs to a group `f n` (one of 64). For a group `g`: `segSum g d` is the sum of column `d`
  over the rows of the group, `segCnt g` the number of those rows (as a sum of ones), the group's mean row is
  `segSum g d / max (segCnt g) 1` when the group has a row and row 0 of `x` otherwise, and the group's statistic is
  `max (γ · Σ_d mean) 0`. Row `n` of the result is `max (λ · (Σ_d x[n, d] + 128 · stat (f n))) 0` in every column.
-/
import Idealize.ShloMosaic.Lib.ValueIdx

noncomputable section

open scoped BigOperators

namespace Cert.Spec

open Idealize.ShloMosaic Idealize.ShloMosaic.ValueIdx

/-- Row `q` of the `i`-th tile of 8192 rows of half `c` of the 131072 rows: row `8192 · (8c + i) + q`. -/
def row (c : Fin 2) (i : Fin 8) (q : Fin 8192) : Fin 131072 :=
  ⟨8192 * (8 * c.val + i.val) + q.val, by have := c.isLt; have := i.isLt; have := q.isLt; omega⟩

/-- One entry of the one-hot matrix: 1 when the row's group word is `g`, else 0. -/
def hit (w : BitVec 32) (g : Nat) : EReal := if w = BitVec.ofNat 32 g then 1 else 0

/-- Group `g` as a row of the first half of a 128-row table … -/
def lo (g : Fin 64) : Fin 128 := ⟨g.val, by have := g.isLt; omega⟩
/-- … and of the second half. -/
def hi (g : Fin 64) : Fin 128 := ⟨64 + g.val, by have := g.isLt; omega⟩

/-- A group's statistic from its column sums, its count and the fallback row. -/
def statOf (gam0 : EReal) (sums : Fin 256 → EReal) (cnt : EReal) (x0 : Fin 256 → EReal) : EReal :=
  max (gam0 * ∑ d : Fin 256, (if 0 < cnt then Ideal.div (sums d) (max cnt 1) else x0 d)) 0

/-- A result row's value from the row's own sum and its group's statistic. -/
def outOf (lam0 rowsum stat : EReal) : EReal := max (lam0 * (rowsum + ((128 : ℝ) : EReal) * stat)) 0

variable (x : (⟨2, ![131072, 256]⟩ : Shape).Idx → EReal) (f : Fin 131072 → Fin 64)
  (gam lam : (⟨1, ![1]⟩ : Shape).Idx → EReal)

/-- Column `d` summed over the rows of group `g`. -/
def segSum (g : Fin 64) (d : Fin 256) : EReal := ∑ n ∈ Finset.univ.filter (fun n => f n = g), x (ix2 n d)

/-- The number of rows of group `g`, as a sum of ones. -/
def segCnt (g : Fin 64) : EReal := ∑ _n ∈ Finset.univ.filter (fun n => f n = g), (1 : EReal)

/-- Group `g`'s statistic. -/
def grpStat (g : Fin 64) : EReal :=
  statOf (gam (ix1 0)) (fun d => segSum x f g d) (segCnt f g) (fun d => x (ix2 0 d))

/-- Row `n` of the result (the same in every column). -/
def resultAt (n : Fin 131072) : EReal :=
  outOf (lam (ix1 0)) (∑ d : Fin 256, x (ix2 n d)) (grpStat x f gam (f n))

end Cert.Spec

end
-- ==== Proof.Consts.lean ====
/-
  The one float constant the two programs do not share, as the extended real its pattern denotes: 128.0.
  (Zero and one are the library's `Ideal.ofBits_zero_f32` and `Ideal.ofBits_one_f32`.)
-/
import Idealize.ShloMosaic.PureOps.Ideal

noncomputable section

namespace Cert.Consts

open Idealize.ShloMosaic

/-- The pattern of `128.0` denotes the real 128. -/
theorem ofBits_128 : Ideal.ofBits .f32 0x43000000#32 = ((128 : ℝ) : EReal) := by
  simp [Ideal.ofBits, Ideal.ieee, -EReal.coe_mul]; norm_num

end Cert.Consts

end
-- ==== Proof.KReducePay.lean ====
/-
  The first kernel call's arithmetic read at one entry: the one-hot matrix of a tile's group words, its product with
  the tile of `x`, and its row sums.
-/
import proofs.«405188_j45363444580781_3_alg».proof.Proof.Gen.KernelIdeal.Skeleton
import proofs.«405188_j45363444580781_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

open scoped BigOperators
open Idealize.ShloMosaic Idealize.SL.Sem Idealize.ShloMosaic.ValueIdx

namespace Cert.KernelIdeal.ReducePay

open Cert.KernelIdeal Cert.KernelIdeal.Gen

/-- The widened equality bit of two words, converted to a float, is 1 when they agree and 0 otherwise. -/
theorem bit_to_float (a w : BitVec 32) :
    (FloatOps.sitofp (F := Ideal) .f32 ((IntOp.cmpi .eq a w).setWidth 32) : EReal) = if w = a then 1 else 0 := by
  by_cases h : w = a
  · subst h
    rw [if_pos rfl]
    have e : IntOp.cmpi .eq w w = 1#1 := by simp [IntOp.cmpi]
    rw [e]
    show (((BitVec.setWidth 32 1#1).toInt : ℝ) : EReal) = 1
    rw [show (BitVec.setWidth 32 1#1).toInt = 1 from by decide]
    simp
  · rw [if_neg h]
    have e : IntOp.cmpi .eq a w = 0#1 := by
      have hne : (a == w) = false := by simpa using fun e : a = w => h e.symm
      simp [IntOp.cmpi, hne]
    rw [e]
    show (((BitVec.setWidth 32 0#1).toInt : ℝ) : EReal) = 0
    rw [show (BitVec.setWidth 32 0#1).toInt = 0 from by decide]
    simp

/-- Entry (g, q) of the one-hot matrix: does row q of the tile belong to group g. -/
theorem onehot_apply (v3 : Vec Ideal S8192 .i32) (g : Fin 64) (q : Fin 8192) :
    k0_pay3 (F := Ideal) v3 (ix2 g q) = Spec.hit (v3 (ix1 q)) g.val := by
  unfold k0_pay3
  show FloatOps.sitofp (F := Ideal) .f32 ((IntOp.cmpi .eq (iota .tc S64x8192 32 [0] iota_S64x8192_d0_w32 (ix2 g q))
    (broadcastTo S64x8192 (shapeCast S1x8192 v3 shapeCasts_S8192_S1x8192) broadcasts_S1x8192_S64x8192 (ix2 g q))).setWidth 32) = _
  rw [broadcastTo_1b_ab_apply, shapeCast_a_1a_apply, iota_single_apply, bit_to_float]
  rfl

/-- The product's left operand is read at (row of the result, contraction coordinate) … -/
theorem lhs_0 (j : S64x256.Idx) (k : dot_S64x8192_S8192x256_S64x256_1_0_0_1_n_n.contr.Idx) :
    (dot_S64x8192_S8192x256_S64x256_1_0_0_1_n_n.lhsIdx j k 0).val = (j 0).val := by
  simp [DotDims.lhsIdx, dot_S64x8192_S8192x256_S64x256_1_0_0_1_n_n]; rfl
theorem lhs_1 (j : S64x256.Idx) (k : dot_S64x8192_S8192x256_S64x256_1_0_0_1_n_n.contr.Idx) :
    (dot_S64x8192_S8192x256_S64x256_1_0_0_1_n_n.lhsIdx j k 1).val = (k ⟨0, by decide⟩).val :=
  dot_S64x8192_S8192x256_S64x256_1_0_0_1_n_n.lhsIdx_val_of_single rfl j k
/-- … and the right operand at (contraction coordinate, column of the result). -/
theorem rhs_0 (j : S64x256.Idx) (k : dot_S64x8192_S8192x256_S64x256_1_0_0_1_n_n.contr.Idx) :
    (dot_S64x8192_S8192x256_S64x256_1_0_0_1_n_n.rhsIdx j k 0).val = (k ⟨0, by decide⟩).val :=
  dot_S64x8192_S8192x256_S64x256_1_0_0_1_n_n.rhsIdx_val_of_single rfl j k
theorem rhs_1 (j : S64x256.Idx) (k : dot_S64x8192_S8192x256_S64x256_1_0_0_1_n_n.contr.Idx) :
    (dot_S64x8192_S8192x256_S64x256_1_0_0_1_n_n.rhsIdx j k 1).val = (j 1).val := by
  simp [DotDims.rhsIdx, dot_S64x8192_S8192x256_S64x256_1_0_0_1_n_n]; rfl

/-- The block of partial sums after a tile: the old block plus, at (g, d), the sum over the tile's rows of the one-hot
    entry times the row's column d. -/
theorem pay4_apply (v3 : Vec Ideal S8192 .i32) (v10 : Vec Ideal S8192x256 .f32) (v11 : Vec Ideal S64x256 .f32)
    (g : Fin 64) (d : Fin 256) :
    k0_pay4 (F := Ideal) v3 v10 v11 (ix2 g d)
      = v11 (ix2 g d) + ∑ q : Fin 8192, Spec.hit (v3 (ix1 q)) g.val * v10 (ix2 q d) := by
  unfold k0_pay4
  show (shapeCast S64x256 v11 shapeCasts_S64x256_S64x256 (ix2 g d) : EReal)
    + FloatOps.matmul dot_S64x8192_S8192x256_S64x256_1_0_0_1_n_n none (k0_pay3 (F := Ideal) v3) v10
        (constant S64x256 .f32 0x00000000#32) (ix2 g d) = _
  rw [shapeCast_self, Ideal.matmul_constant_zero_apply,
    ← Equiv.sum_comp (contrEquiv1 dot_S64x8192_S8192x256_S64x256_1_0_0_1_n_n 8192 rfl rfl).symm]
  refine congrArg (v11 (ix2 g d) + ·) (Finset.sum_congr rfl fun q _ => ?_)
  have hk := contrEquiv1_symm_val dot_S64x8192_S8192x256_S64x256_1_0_0_1_n_n 8192 rfl rfl q
  have el : dot_S64x8192_S8192x256_S64x256_1_0_0_1_n_n.lhsIdx (ix2 g d)
      ((contrEquiv1 dot_S64x8192_S8192x256_S64x256_1_0_0_1_n_n 8192 rfl rfl).symm q) = ix2 g q := by
    funext ax; apply Fin.ext
    match ax with
    | ⟨0, _⟩ => exact lhs_0 _ _
    | ⟨1, _⟩ => exact (lhs_1 _ _).trans hk
  have er : dot_S64x8192_S8192x256_S64x256_1_0_0_1_n_n.rhsIdx (ix2 g d)
      ((contrEquiv1 dot_S64x8192_S8192x256_S64x256_1_0_0_1_n_n 8192 rfl rfl).symm q) = ix2 q d := by
    funext ax; apply Fin.ext
    match ax with
    | ⟨0, _⟩ => exact (rhs_0 _ _).trans hk
    | ⟨1, _⟩ => exact rhs_1 _ _
  rw [el, er, onehot_apply]

/-- The sum of row g of a [64, 8192] block along its 8192 lanes. -/
theorem rowsum_apply (src : FVec Ideal S64x8192 .f32) (g : Fin 64) :
    multiReduction .add [1] S64 src 0x00000000#32 reduces_S64x8192_S64 (.inl rfl) rfl (ix1 g)
      = ∑ q : Fin 8192, src (ix2 g q) := by
  refine (Ideal.multiReduction_add_single src 0x00000000#32 reduces_S64x8192_S64 (.inl rfl) rfl (ix1 g)).trans ?_
  refine Finset.sum_congr rfl fun q _ => congrArg src ?_
  funext a; apply Fin.ext
  match a with
  | ⟨0, _⟩ => rfl
  | ⟨1, _⟩ => rfl

/-- A column [64, 1] repeated over 128 lanes reads, at (g, l), the column's entry g. -/
theorem column_bcast_apply {α : Type} (v : S64x1.Idx → α) (g : Fin 64) (l : Fin 128) :
    broadcastTo S64x128 v broadcasts_S64x1_S64x128 (ix2 g l) = v (ix2 g (0 : Fin 1)) := by
  refine broadcastTo_apply v broadcasts_S64x1_S64x128 (ix2 g l) (ix2 g (0 : Fin 1)) fun ax => ?_
  match ax with
  | ⟨0, _⟩ => rfl
  | ⟨1, _⟩ => rfl

/-- A vector [64] laid out as a column [64, 1] reads, at (g, 0), the vector's entry g. -/
theorem column_cast_apply {α : Type} (v : S64.Idx → α) (g : Fin 64) (u : Fin 1) :
    shapeCast S64x1 v shapeCasts_S64_S64x1 (ix2 g u) = v (ix1 g) :=
  shapeCast_apply v shapeCasts_S64_S64x1 _ _ (by
    have hu : u.val = 0 := by omega
    rw [Shape.rowMajor_val_two, Shape.rowMajor_val_one]
    show g.val = g.val * 1 + u.val
    rw [hu, Nat.mul_one, Nat.add_zero])

/-- The block of partial counts after a tile: the old block plus, in every lane of row g, the number of the tile's rows
    in group g (the sum of the one-hot row). -/
theorem pay5_apply (v3 : Vec Ideal S8192 .i32) (v18 : Vec Ideal S64x128 .f32) (g : Fin 64) (l : Fin 128) :
    k0_pay5 (F := Ideal) v3 v18 (ix2 g l) = v18 (ix2 g l) + ∑ q : Fin 8192, Spec.hit (v3 (ix1 q)) g.val := by
  unfold k0_pay5
  show (shapeCast S64x128 v18 shapeCasts_S64x128_S64x128 (ix2 g l) : EReal)
    + broadcastTo S64x128 (shapeCast S64x1 (shapeCast S64x1
        (multiReduction .add [1] S64 (k0_pay3 (F := Ideal) v3) 0x00000000#32 reduces_S64x8192_S64 (.inl rfl) rfl)
        shapeCasts_S64_S64x1) shapeCasts_S64x1_S64x1) broadcasts_S64x1_S64x128 (ix2 g l) = _
  rw [shapeCast_self v18, column_bcast_apply, shapeCast_self _ shapeCasts_S64x1_S64x1, column_cast_apply, rowsum_apply]
  exact congrArg (v18 (ix2 g l) + ·) (Finset.sum_congr rfl fun q _ => onehot_apply v3 g q)

/-- The blocks the first tile of a half starts from are zero. -/
theorem pay1_apply (i : S64x256.Idx) : (k0_pay1 (F := Ideal)) i = 0 := Ideal.ofBits_zero_f32
theorem pay2_apply (i : S64x128.Idx) : (k0_pay2 (F := Ideal)) i = 0 := Ideal.ofBits_zero_f32

end Cert.KernelIdeal.ReducePay

end
-- ==== Proof.KReduce.lean ====
/-
  The first kernel call's two accumulated result arrays (partial group sums and counts), element by element, as the second part of the program finds them.
-/
import proofs.«405188_j45363444580781_3_alg».proof.Proof.Gen.KernelIdeal.Frame
import proofs.«405188_j45363444580781_3_alg».proof.Proof.KArrays
import proofs.«405188_j45363444580781_3_alg».proof.Proof.Spec
import proofs.«405188_j45363444580781_3_alg».proof.Proof.Consts
import proofs.«405188_j45363444580781_3_alg».proof.Proof.KReducePay
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reduce

open Cert.KernelIdeal Cert.KernelIdeal.Gen Cert.KernelIdeal.Arr

/-! ## What one tile's pass leaves in the two accumulated blocks, for any float values -/

section Pieces
variable {F : FTy → Type} [FloatOps F]

/-- The zero offsets of a whole-block load or store, as a constant function. -/
theorem hz1 : (![0] : Fin 1 → Nat) = fun _ => 0 := funext fun a => by fin_cases a; rfl
theorem hz2 : (![0, 0] : Fin 2 → Nat) = fun _ => 0 := funext fun a => by fin_cases a <;> rfl

/-- At the first tile of a half the block of sums is reset to zero and then updated: it ends as the update of the zero block. -/
theorem sums_A (c : Dev nD) (i : grid0.Coords) (a2 : Memref sig .tc .vmem S8192x256 .f32) (h2 : a2.IsWhole)
    (a3 : Memref sig .tc .vmem S8192 .i32) (h3 : a3.IsWhole) (a4 : Memref sig .tc .vmem S64x256 .f32) (h4 : a4.IsWhole)
    (a5 : Memref sig .tc .vmem S64x128 .f32) (h5 : a5.IsWhole) (a6 : Memref sig .tc .vmem S8192x1 .f32) (h6 : a6.IsWhole)
    (hc : cond0_0 i) (x0 : Vec F S8192x256 .f32) (x1 : Vec F S8192 .i32) :
    out0_A_2 c i a2 h2 a3 h3 a4 h4 a5 h5 a6 h6 hc x0 x1 = k0_pay4 x1 x0 (k0_pay1 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S64x256) hz2, View.readCov_unit_zero (S := S64x256) _ hz2]
  simp only [View.readAt_eq_ld, h2.read_unread, h3.read_unread, View.ld_unit_zero (S := S8192x256) hz2,
    View.ld_unit_zero (S := S8192) hz1]

/-- At a later tile it ends as the update of what it held before. -/
theorem sums_B (c : Dev nD) (i : grid0.Coords) (a2 : Memref sig .tc .vmem S8192x256 .f32) (h2 : a2.IsWhole)
    (a3 : Memref sig .tc .vmem S8192 .i32) (h3 : a3.IsWhole) (a4 : Memref sig .tc .vmem S64x256 .f32) (h4 : a4.IsWhole)
    (a5 : Memref sig .tc .vmem S64x128 .f32) (h5 : a5.IsWhole) (a6 : Memref sig .tc .vmem S8192x1 .f32) (h6 : a6.IsWhole)
    (hc : ¬cond0_0 i) (x0 : Vec F S8192x256 .f32) (x1 : Vec F S8192 .i32) (xo2 : Vec F S64x256 .f32) (xo3 : Vec F S64x128 .f32) :
    out0_B_2 c i a2 h2 a3 h3 a4 h4 a5 h5 a6 h6 hc x0 x1 xo2 xo3 = k0_pay4 x1 x0 xo2 := by
  unfold out0_B_2
  rw [View.read_writes_eq_canon _ _ _ (cover0_B_2 c i a2 h2 a3 h3 a4 h4 a5 h5 a6 h6 hc x0 x1 xo2 xo3)]
  unfold kernelRun0_B
  dsimp only
  sl_unfold_words
  rw [View.canon_unit_zero hz2]
  simp only [View.readAt_eq_ld, h2.read_unread, h3.read_unread, h4.read_unread, View.ld_unit_zero (S := S8192x256) hz2,
    View.ld_unit_zero (S := S8192) hz1, View.ld_unit_zero (S := S64x256) hz2]

/-- The block of counts likewise: reset then updated at the first tile of a half … -/
theorem cnts_A (c : Dev nD) (i : grid0.Coords) (a2 : Memref sig .tc .vmem S8192x256 .f32) (h2 : a2.IsWhole)
    (a3 : Memref sig .tc .vmem S8192 .i32) (h3 : a3.IsWhole) (a4 : Memref sig .tc .vmem S64x256 .f32) (h4 : a4.IsWhole)
    (a5 : Memref sig .tc .vmem S64x128 .f32) (h5 : a5.IsWhole) (a6 : Memref sig .tc .vmem S8192x1 .f32) (h6 : a6.IsWhole)
    (hc : cond0_0 i) (x0 : Vec F S8192x256 .f32) (x1 : Vec F S8192 .i32) :
    out0_A_3 c i a2 h2 a3 h3 a4 h4 a5 h5 a6 h6 hc x0 x1 = k0_pay5 x1 (k0_pay2 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S64x128) hz2, View.readCov_unit_zero (S := S64x128) _ hz2]
  simp only [View.readAt_eq_ld, h3.read_unread, View.ld_unit_zero (S := S8192) hz1]

/-- … and updated from what it held at every later tile. -/
theorem cnts_B (c : Dev nD) (i : grid0.Coords) (a2 : Memref sig .tc .vmem S8192x256 .f32) (h2 : a2.IsWhole)
    (a3 : Memref sig .tc .vmem S8192 .i32) (h3 : a3.IsWhole) (a4 : Memref sig .tc .vmem S64x256 .f32) (h4 : a4.IsWhole)
    (a5 : Memref sig .tc .vmem S64x128 .f32) (h5 : a5.IsWhole) (a6 : Memref sig .tc .vmem S8192x1 .f32) (h6 : a6.IsWhole)
    (hc : ¬cond0_0 i) (x0 : Vec F S8192x256 .f32) (x1 : Vec F S8192 .i32) (xo2 : Vec F S64x256 .f32) (xo3 : Vec F S64x128 .f32) :
    out0_B_3 c i a2 h2 a3 h3 a4 h4 a5 h5 a6 h6 hc x0 x1 xo2 xo3 = k0_pay5 x1 xo3 := by
  unfold out0_B_3
  rw [View.read_writes_eq_canon _ _ _ (cover0_B_3 c i a2 h2 a3 h3 a4 h4 a5 h5 a6 h6 hc x0 x1 xo2 xo3)]
  unfold kernelRun0_B
  dsimp only
  sl_unfold_words
  rw [View.canon_unit_zero hz2]
  simp only [View.readAt_eq_ld, h3.read_unread, h5.read_unread, View.ld_unit_zero (S := S8192) hz1,
    View.ld_unit_zero (S := S64x128) hz2]

end Pieces

variable (m : (ℓ : Loc nD τ sig) → Buf (Elt Ideal) ℓ) (ρ : Dev nD → PrngReg)

/-! ## The tiles as the first call reads them -/

/-- Tile `t` of `x` (8192 rows) and of the group words, as blocks of the launched arrays. -/
abbrev xblk (c : Dev nD) (t : Fin cfg0.N) : Vec Ideal S8192x256 .f32 := iblk0 (V0 m ρ) c 0 t
abbrev sblk (c : Dev nD) (t : Fin cfg0.N) : Vec Ideal S8192 .i32 := iblk0 (V0 m ρ) c 1 t

/-- The block indices over the grid: tile `t` of the inputs at point `t`, half `t / 8` of the two results. -/
theorem idx_x : ∀ t : Fin cfg0.N, win0_0.index t 0 = t.val ∧ win0_0.index t 1 = 0 :=
  (by decide +kernel : ∀ t : Fin grid0.N, win0_0.index t 0 = t.val ∧ win0_0.index t 1 = 0)
theorem idx_s : ∀ t : Fin cfg0.N, win0_1.index t 0 = t.val :=
  (by decide +kernel : ∀ t : Fin grid0.N, win0_1.index t 0 = t.val)
theorem idx_sums : ∀ t : Fin cfg0.N, win0_2.index t 0 = t.val / 8 ∧ win0_2.index t 1 = 0 :=
  (by decide +kernel : ∀ t : Fin grid0.N, win0_2.index t 0 = t.val / 8 ∧ win0_2.index t 1 = 0)
theorem idx_cnts : ∀ t : Fin cfg0.N, win0_3.index t 0 = t.val / 8 ∧ win0_3.index t 1 = 0 :=
  (by decide +kernel : ∀ t : Fin grid0.N, win0_3.index t 0 = t.val / 8 ∧ win0_3.index t 1 = 0)

/-- Row `q` of tile `t` is row `8192 t + q` of `x`. -/
theorem xblk_apply (c : Dev nD) (t : Fin cfg0.N) (q : Fin 8192) (d : Fin 256) (n : Fin 131072)
    (hn : n.val = 8192 * t.val + q.val) : xblk m ρ c t (ix2 q d) = xArr m c (ix2 n d) := by
  unfold xblk iblk0
  rw [View.read_apply]
  show xArr m c _ = xArr m c _
  congr 1
  funext a
  apply Fin.ext
  match a with
  | ⟨0, _⟩ => show win0_0.index t 0 * 8192 + 1 * q.val = n.val; rw [(idx_x t).1, hn]; omega
  | ⟨1, _⟩ => show win0_0.index t 1 * 256 + 1 * d.val = d.val; rw [(idx_x t).2]; omega

/-- Word `q` of tile `t` is word `8192 t + q` of the group words. -/
theorem sblk_apply (c : Dev nD) (t : Fin cfg0.N) (q : Fin 8192) (n : Fin 131072)
    (hn : n.val = 8192 * t.val + q.val) : sblk m ρ c t (ix1 q) = subArr m c (ix1 n) := by
  unfold sblk iblk0
  rw [View.read_apply]
  show subArr m c _ = subArr m c _
  congr 1
  funext a
  apply Fin.ext
  match a with
  | ⟨0, _⟩ => show win0_1.index t 0 * 8192 + 1 * q.val = n.val; rw [idx_s t, hn]; omega

/-! ## What one tile adds -/

/-- What tile `n` adds to the partial sum of group `g`, column `d` (nothing past the grid). -/
def tileSum (c : Dev nD) (n : Nat) (g : Fin 64) (d : Fin 256) : EReal :=
  if h : n < cfg0.N then
    ∑ q : Fin 8192, Spec.hit (sblk m ρ c ⟨n, h⟩ (ix1 q)) g.val * xblk m ρ c ⟨n, h⟩ (ix2 q d)
  else 0

/-- What tile `n` adds to the count of group `g`. -/
def tileCnt (c : Dev nD) (n : Nat) (g : Fin 64) : EReal :=
  if h : n < cfg0.N then ∑ q : Fin 8192, Spec.hit (sblk m ρ c ⟨n, h⟩ (ix1 q)) g.val else 0

/-- At the first tile of a half the block of sums is that tile's contribution alone (zero plus it). -/
theorem sums_first (c : Dev nD) (t : Fin cfg0.N) (h0 : t.val % 8 = 0) (g : Fin 64) (d : Fin 256) :
    (outsAt0 (V0 m ρ) c t.val t.isLt).1 (ix2 g d) = tileSum m ρ c t.val g d := by
  rw [outsAt0_A (V0 m ρ) c t h0]
  dsimp only
  refine (congrFun (sums_A (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xblk m ρ c t) (sblk m ρ c t)) (ix2 g d)).trans ?_
  refine (ReducePay.pay4_apply (sblk m ρ c t) (xblk m ρ c t) (k0_pay1 (F := Ideal)) g d).trans ?_
  rw [ReducePay.pay1_apply, zero_add]
  unfold tileSum
  rw [dif_pos t.isLt]

/-- At every later tile it is what the tile before left plus this tile's contribution. -/
theorem sums_next (c : Dev nD) (t : Fin cfg0.N) (h0 : ¬t.val % 8 = 0) (g : Fin 64) (d : Fin 256) :
    (outsAt0 (V0 m ρ) c t.val t.isLt).1 (ix2 g d)
      = (outsAt0 (V0 m ρ) c (t.val - 1) (Nat.lt_of_le_of_lt (Nat.sub_le _ _) t.isLt)).1 (ix2 g d)
        + tileSum m ρ c t.val g d := by
  rw [outsAt0_B (V0 m ρ) c t h0]
  dsimp only
  refine (congrFun (sums_B (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xblk m ρ c t) (sblk m ρ c t)
    (outsAt0 (V0 m ρ) c (t.val - 1) (Nat.lt_of_le_of_lt (Nat.sub_le _ _) t.isLt)).1
    (outsAt0 (V0 m ρ) c (t.val - 1) (Nat.lt_of_le_of_lt (Nat.sub_le _ _) t.isLt)).2.1) (ix2 g d)).trans ?_
  refine (ReducePay.pay4_apply (sblk m ρ c t) (xblk m ρ c t)
    (outsAt0 (V0 m ρ) c (t.val - 1) (Nat.lt_of_le_of_lt (Nat.sub_le _ _) t.isLt)).1 g d).trans ?_
  unfold tileSum
  rw [dif_pos t.isLt]

/-- The same two steps for the block of counts. -/
theorem cnts_first (c : Dev nD) (t : Fin cfg0.N) (h0 : t.val % 8 = 0) (g : Fin 64) (l : Fin 128) :
    (outsAt0 (V0 m ρ) c t.val t.isLt).2.1 (ix2 g l) = tileCnt m ρ c t.val g := by
  rw [outsAt0_A (V0 m ρ) c t h0]
  dsimp only
  refine (congrFun (cnts_A (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xblk m ρ c t) (sblk m ρ c t)) (ix2 g l)).trans ?_
  refine (ReducePay.pay5_apply (sblk m ρ c t) (k0_pay2 (F := Ideal)) g l).trans ?_
  rw [ReducePay.pay2_apply, zero_add]
  unfold tileCnt
  rw [dif_pos t.isLt]

theorem cnts_next (c : Dev nD) (t : Fin cfg0.N) (h0 : ¬t.val % 8 = 0) (g : Fin 64) (l : Fin 128) :
    (outsAt0 (V0 m ρ) c t.val t.isLt).2.1 (ix2 g l)
      = (outsAt0 (V0 m ρ) c (t.val - 1) (Nat.lt_of_le_of_lt (Nat.sub_le _ _) t.isLt)).2.1 (ix2 g l)
        + tileCnt m ρ c t.val g := by
  rw [outsAt0_B (V0 m ρ) c t h0]
  dsimp only
  refine (congrFun (cnts_B (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xblk m ρ c t) (sblk m ρ c t)
    (outsAt0 (V0 m ρ) c (t.val - 1) (Nat.lt_of_le_of_lt (Nat.sub_le _ _) t.isLt)).1
    (outsAt0 (V0 m ρ) c (t.val - 1) (Nat.lt_of_le_of_lt (Nat.sub_le _ _) t.isLt)).2.1) (ix2 g l)).trans ?_
  refine (ReducePay.pay5_apply (sblk m ρ c t)
    (outsAt0 (V0 m ρ) c (t.val - 1) (Nat.lt_of_le_of_lt (Nat.sub_le _ _) t.isLt)).2.1 g l).trans ?_
  unfold tileCnt
  rw [dif_pos t.isLt]

/-! ## The running blocks: the sum over the tiles of the half so far -/

/-- After point `n` the block of sums holds the contributions of the tiles `n - n % 8 … n`: by induction on the point. -/
theorem sums_run (c : Dev nD) : ∀ (n : Nat) (h : n < cfg0.N) (g : Fin 64) (d : Fin 256),
    (outsAt0 (V0 m ρ) c n h).1 (ix2 g d) = ∑ s ∈ Finset.range (n % 8 + 1), tileSum m ρ c (n - n % 8 + s) g d
  | 0, h, g, d => by
    rw [sums_first m ρ c ⟨0, h⟩ rfl g d]
    simp
  | n + 1, h, g, d => by
    by_cases h0 : (n + 1) % 8 = 0
    · rw [sums_first m ρ c ⟨n + 1, h⟩ h0 g d, h0]
      simp
    · rw [sums_next m ρ c ⟨n + 1, h⟩ h0 g d]
      show (outsAt0 (V0 m ρ) c n _).1 (ix2 g d) + tileSum m ρ c (n + 1) g d = _
      rw [sums_run c n (Nat.lt_of_succ_lt h) g d]
      have e1 : (n + 1) % 8 = n % 8 + 1 := by omega
      have e2 : n + 1 - (n % 8 + 1) = n - n % 8 := by omega
      rw [e1, e2, Finset.sum_range_succ _ (n % 8 + 1)]
      congr 2
      omega

theorem cnts_run (c : Dev nD) : ∀ (n : Nat) (h : n < cfg0.N) (g : Fin 64) (l : Fin 128),
    (outsAt0 (V0 m ρ) c n h).2.1 (ix2 g l) = ∑ s ∈ Finset.range (n % 8 + 1), tileCnt m ρ c (n - n % 8 + s) g
  | 0, h, g, l => by
    rw [cnts_first m ρ c ⟨0, h⟩ rfl g l]
    simp
  | n + 1, h, g, l => by
    by_cases h0 : (n + 1) % 8 = 0
    · rw [cnts_first m ρ c ⟨n + 1, h⟩ h0 g l, h0]
      simp
    · rw [cnts_next m ρ c ⟨n + 1, h⟩ h0 g l]
      show (outsAt0 (V0 m ρ) c n _).2.1 (ix2 g l) + tileCnt m ρ c (n + 1) g = _
      rw [cnts_run c n (Nat.lt_of_succ_lt h) g l]
      have e1 : (n + 1) % 8 = n % 8 + 1 := by omega
      have e2 : n + 1 - (n % 8 + 1) = n - n % 8 := by omega
      rw [e1, e2, Finset.sum_range_succ _ (n % 8 + 1)]
      congr 2
      omega

/-! ## The result arrays, entry by entry -/

/-- Row `r`, column `d` of the partial sums: half `r / 64`, group `r % 64`, summed tile by tile. -/
def sumsRow (c : Dev nD) (r : Fin 128) (d : Fin 256) : EReal :=
  ∑ i : Fin 8, ∑ q : Fin 8192,
    Spec.hit (subArr m c (ix1 (Spec.row ⟨r.val / 64, by have := r.isLt; omega⟩ i q))) (r.val % 64)
      * xArr m c (ix2 (Spec.row ⟨r.val / 64, by have := r.isLt; omega⟩ i q) d)

/-- Row `r` of the partial counts. -/
def cntRow (c : Dev nD) (r : Fin 128) : EReal :=
  ∑ i : Fin 8, ∑ q : Fin 8192,
    Spec.hit (subArr m c (ix1 (Spec.row ⟨r.val / 64, by have := r.isLt; omega⟩ i q))) (r.val % 64)

/-- At the last tile of a half, row `g` of the block of sums is row `64 (t / 8) + g` of the result: the eight tiles'
    contributions, each tile's rows read off `x` and the group words. -/
theorem sums_last (c : Dev nD) (t : Fin cfg0.N) (h7 : t.val % 8 = 7) (g : Fin 64) (d : Fin 256) (r : Fin 128)
    (hr : r.val = 64 * (t.val / 8) + g.val) :
    (outsAt0 (V0 m ρ) c t.val t.isLt).1 (ix2 g d) = sumsRow m c r d := by
  have hN : cfg0.N = 16 := N_0
  have ht : t.val < 16 := lt_of_lt_of_eq t.isLt hN
  have hg : r.val % 64 = g.val := by have := g.isLt; omega
  rw [sums_run m ρ c t.val t.isLt g d, show t.val % 8 + 1 = 8 from by omega, h7, Finset.sum_range]
  unfold sumsRow
  refine Finset.sum_congr rfl fun i _ => ?_
  have hi : t.val - 7 + i.val < cfg0.N :=
    lt_of_lt_of_eq (show t.val - 7 + i.val < 16 by have := i.isLt; omega) hN.symm
  unfold tileSum
  rw [dif_pos hi]
  refine Finset.sum_congr rfl fun q _ => ?_
  have hn : (Spec.row ⟨r.val / 64, by have := r.isLt; omega⟩ i q).val = 8192 * (t.val - 7 + i.val) + q.val := by
    show 8192 * (8 * (r.val / 64) + i.val) + q.val = _
    have := g.isLt; omega
  rw [sblk_apply m ρ c ⟨t.val - 7 + i.val, hi⟩ q _ hn, xblk_apply m ρ c ⟨t.val - 7 + i.val, hi⟩ q d _ hn, hg]

theorem cnts_last (c : Dev nD) (t : Fin cfg0.N) (h7 : t.val % 8 = 7) (g : Fin 64) (l : Fin 128) (r : Fin 128)
    (hr : r.val = 64 * (t.val / 8) + g.val) :
    (outsAt0 (V0 m ρ) c t.val t.isLt).2.1 (ix2 g l) = cntRow m c r := by
  have hN : cfg0.N = 16 := N_0
  have ht : t.val < 16 := lt_of_lt_of_eq t.isLt hN
  have hg : r.val % 64 = g.val := by have := g.isLt; omega
  rw [cnts_run m ρ c t.val t.isLt g l, show t.val % 8 + 1 = 8 from by omega, h7, Finset.sum_range]
  unfold cntRow
  refine Finset.sum_congr rfl fun i _ => ?_
  have hi : t.val - 7 + i.val < cfg0.N :=
    lt_of_lt_of_eq (show t.val - 7 + i.val < 16 by have := i.isLt; omega) hN.symm
  unfold tileCnt
  rw [dif_pos hi]
  refine Finset.sum_congr rfl fun q _ => ?_
  have hn : (Spec.row ⟨r.val / 64, by have := r.isLt; omega⟩ i q).val = 8192 * (t.val - 7 + i.val) + q.val := by
    show 8192 * (8 * (r.val / 64) + i.val) + q.val = _
    have := g.isLt; omega
  rw [sblk_apply m ρ c ⟨t.val - 7 + i.val, hi⟩ q _ hn, hg]

/-- What the last tile of a half writes back is its half of the array of partial sums. -/
theorem sums_flushed (c : Dev nD) (t : Fin cfg0.N) (hf : (cfg0.win 2).flush t = true) :
    (dat0 (V0 m ρ) c).flushed 2 t
      = ((cfg0.win 2).blk t).view.read (Elt Ideal) (fun i : S128x256.Idx => sumsRow m c (i 0) (i 1)) := by
  have h7 : t.val % 8 = 7 := (flush0_2 t).mp hf
  have hN : cfg0.N = 16 := N_0
  have ht : t.val < 16 := lt_of_lt_of_eq t.isLt hN
  show (cfg0.win 2).cut (grid0.coords t) ((dat0 (V0 m ρ) c).after 2 t) = _
  rw [after0_2]
  funext y
  rw [View.read_apply]
  have hy0 : (y 0).val < 64 := (y 0).isLt
  refine ((congrArg (outsAt0 (V0 m ρ) c t.val t.isLt).1 (eq_ix2 (n0 := 64) (n1 := 256) y)).trans
    (sums_last m ρ c t h7 (y 0) (y 1) ⟨64 * (t.val / 8) + (y 0).val, by omega⟩ rfl)).trans ?_
  show sumsRow m c _ _ = sumsRow m c _ _
  congr 1
  · apply Fin.ext
    show 64 * (t.val / 8) + (y 0).val = win0_2.index t 0 * 64 + 1 * (y 0).val
    rw [(idx_sums t).1]; omega
  · apply Fin.ext
    show (y 1).val = win0_2.index t 1 * 256 + 1 * (y 1).val
    rw [(idx_sums t).2]; omega

theorem cnts_flushed (c : Dev nD) (t : Fin cfg0.N) (hf : (cfg0.win 3).flush t = true) :
    (dat0 (V0 m ρ) c).flushed 3 t
      = ((cfg0.win 3).blk t).view.read (Elt Ideal) (fun i : S128x128.Idx => cntRow m c (i 0)) := by
  have h7 : t.val % 8 = 7 := (flush0_3 t).mp hf
  have hN : cfg0.N = 16 := N_0
  have ht : t.val < 16 := lt_of_lt_of_eq t.isLt hN
  show (cfg0.win 3).cut (grid0.coords t) ((dat0 (V0 m ρ) c).after 3 t) = _
  rw [after0_3]
  funext y
  rw [View.read_apply]
  have hy0 : (y 0).val < 64 := (y 0).isLt
  refine ((congrArg (outsAt0 (V0 m ρ) c t.val t.isLt).2.1 (eq_ix2 (n0 := 64) (n1 := 128) y)).trans
    (cnts_last m ρ c t h7 (y 0) (y 1) ⟨64 * (t.val / 8) + (y 0).val, by omega⟩ rfl)).trans ?_
  show cntRow m c _ = cntRow m c _
  congr 1
  apply Fin.ext
  show 64 * (t.val / 8) + (y 0).val = win0_3.index t 0 * 64 + 1 * (y 0).val
  rw [(idx_cnts t).1]; omega

/-- Row `r` of either result lies in the block the last tile of half `r / 64` writes back. -/
theorem sums_mem (t : Fin cfg0.N) (r : Fin 128) (d : Fin 256) (hr : r.val / 64 = t.val / 8) :
    ix2 r d ∈ ((cfg0.win 2).blk t).view.set := by
  show ix2 r d ∈ ((View.whole main_v0_0).slice (win0_2.rect t)).set
  rw [View.set_slice_whole, Rect.mem_set_unit]
  intro a
  match a with
  | ⟨0, _⟩ =>
    show win0_2.index t 0 * 64 ≤ r.val ∧ r.val < win0_2.index t 0 * 64 + 64
    rw [(idx_sums t).1]; omega
  | ⟨1, _⟩ =>
    show win0_2.index t 1 * 256 ≤ d.val ∧ d.val < win0_2.index t 1 * 256 + 256
    rw [(idx_sums t).2]; have := d.isLt; omega

theorem cnts_mem (t : Fin cfg0.N) (r : Fin 128) (l : Fin 128) (hr : r.val / 64 = t.val / 8) :
    ix2 r l ∈ ((cfg0.win 3).blk t).view.set := by
  show ix2 r l ∈ ((View.whole main_v0_1).slice (win0_3.rect t)).set
  rw [View.set_slice_whole, Rect.mem_set_unit]
  intro a
  match a with
  | ⟨0, _⟩ =>
    show win0_3.index t 0 * 64 ≤ r.val ∧ r.val < win0_3.index t 0 * 64 + 64
    rw [(idx_cnts t).1]; omega
  | ⟨1, _⟩ =>
    show win0_3.index t 1 * 128 ≤ l.val ∧ l.val < win0_3.index t 1 * 128 + 128
    rw [(idx_cnts t).2]; have := l.isLt; omega

/-- Row `r` of the partial group sums: half `r / 64` of the rows, group `r % 64`, column `d`, summed tile by tile. -/
theorem sums_at (c : Dev nD) (r : Fin 128) (d : Fin 256) :
    sumsArr m ρ c (ix2 r d)
      = ∑ i : Fin 8, ∑ q : Fin 8192,
          Spec.hit (subArr m c (ix1 (Spec.row ⟨r.val / 64, by have := r.isLt; omega⟩ i q))) (r.val % 64)
            * xArr m c (ix2 (Spec.row ⟨r.val / 64, by have := r.isLt; omega⟩ i q) d) := by
  have hN : cfg0.N = 16 := N_0
  have hr : r.val < 128 := r.isLt
  have ht : 8 * (r.val / 64) + 7 < cfg0.N := lt_of_lt_of_eq (show 8 * (r.val / 64) + 7 < 16 by omega) hN.symm
  have e := (dat0 (V0 m ρ) c).arrAt_apply_of_mem 2 (fun i : S128x256.Idx => sumsRow m c (i 0) (i 1))
    (sums_flushed m ρ c) cfg0.N ⟨8 * (r.val / 64) + 7, ht⟩ (ix2 r d) ht
    ((flush0_2 _).mpr (by dsimp only; omega)) (sums_mem _ r d (by dsimp only; omega))
  refine ((congrFun (W1_arr m ρ c 2) (ix2 r d)).trans e).trans ?_
  rfl

/-- Row `r` of the partial group counts (the same in every one of the 128 lanes). -/
theorem counts_at (c : Dev nD) (r : Fin 128) (l : Fin 128) :
    cntArr m ρ c (ix2 r l)
      = ∑ i : Fin 8, ∑ q : Fin 8192,
          Spec.hit (subArr m c (ix1 (Spec.row ⟨r.val / 64, by have := r.isLt; omega⟩ i q))) (r.val % 64) := by
  have hN : cfg0.N = 16 := N_0
  have hr : r.val < 128 := r.isLt
  have ht : 8 * (r.val / 64) + 7 < cfg0.N := lt_of_lt_of_eq (show 8 * (r.val / 64) + 7 < 16 by omega) hN.symm
  have e := (dat0 (V0 m ρ) c).arrAt_apply_of_mem 3 (fun i : S128x128.Idx => cntRow m c (i 0))
    (cnts_flushed m ρ c) cfg0.N ⟨8 * (r.val / 64) + 7, ht⟩ (ix2 r l) ht
    ((flush0_3 _).mpr (by dsimp only; omega)) (cnts_mem _ r l (by dsimp only; omega))
  refine ((congrFun (W1_arr m ρ c 3) (ix2 r l)).trans e).trans ?_
  rfl

end Cert.KernelIdeal.Reduce

end
-- ==== Proof.KRowsum.lean ====
/-
  The first kernel call's third result: each row's own sum, element by element.

  At every one of the 16 points, whether or not the point resets the accumulators, the body's one store into the third
  result is the lane sum of the x tile it loaded: row p of the stored column is the sum of row p of the tile over its
  256 lanes. Point t reads block t of x (8192 rows) and writes block t of the sums, so the blocks written back are the
  blocks of ONE function of x, and they cover the array: row n is in the block of point n / 8192.
-/
import proofs.«405188_j45363444580781_3_alg».proof.Proof.Gen.KernelIdeal.Frame
import proofs.«405188_j45363444580781_3_alg».proof.Proof.KArrays
import proofs.«405188_j45363444580781_3_alg».proof.Proof.Spec
import proofs.«405188_j45363444580781_3_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Rowsum

open Cert.KernelIdeal Cert.KernelIdeal.Gen Cert.KernelIdeal.Arr

variable (m : (ℓ : Loc nD τ sig) → Buf (Elt Ideal) ℓ) (ρ : Dev nD → PrngReg)

private theorem hz2 : (![0, 0] : Fin 2 → Nat) = fun _ => 0 := funext fun a => by fin_cases a <;> rfl

/-! ## What either control case leaves in the row sums' staging buffer -/

section Pieces
variable {F : FTy → Type} [FloatOps F]

/-- At a first point of a half (the accumulators are reset there) the body's one store into the third result is the
    lane sum of the `x` tile it loaded. -/
private theorem rowOut_A (c : Dev nD) (i : grid0.Coords) (arg2 : Memref sig .tc .vmem S8192x256 .f32) (harg2 : arg2.IsWhole) (arg3 : Memref sig .tc .vmem S8192 .i32) (harg3 : arg3.IsWhole) (arg4 : Memref sig .tc .vmem S64x256 .f32) (harg4 : arg4.IsWhole) (arg5 : Memref sig .tc .vmem S64x128 .f32) (harg5 : arg5.IsWhole) (arg6 : Memref sig .tc .vmem S8192x1 .f32) (harg6 : arg6.IsWhole) (hc0 : cond0_0 i)
    (x0 : Vec F S8192x256 .f32) (x1 : Vec F S8192 .i32) :
    out0_A_4 c i arg2 harg2 arg3 harg3 arg4 harg4 arg5 harg5 arg6 harg6 hc0 x0 x1 = k0_pay6 x0 := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_unit_zero hz2]
  simp only [View.readAt_eq_ld, harg2.read_unread, View.ld_unit_zero (S := S8192x256) hz2]

/-- At every other point likewise: the store into the third result does not read the accumulators. -/
private theorem rowOut_B (c : Dev nD) (i : grid0.Coords) (arg2 : Memref sig .tc .vmem S8192x256 .f32) (harg2 : arg2.IsWhole) (arg3 : Memref sig .tc .vmem S8192 .i32) (harg3 : arg3.IsWhole) (arg4 : Memref sig .tc .vmem S64x256 .f32) (harg4 : arg4.IsWhole) (arg5 : Memref sig .tc .vmem S64x128 .f32) (harg5 : arg5.IsWhole) (arg6 : Memref sig .tc .vmem S8192x1 .f32) (harg6 : arg6.IsWhole) (hc0 : ¬cond0_0 i)
    (x0 : Vec F S8192x256 .f32) (x1 : Vec F S8192 .i32) (xo2 : Vec F S64x256 .f32) (xo3 : Vec F S64x128 .f32) :
    out0_B_4 c i arg2 harg2 arg3 harg3 arg4 harg4 arg5 harg5 arg6 harg6 hc0 x0 x1 xo2 xo3 = k0_pay6 x0 := by
  unfold out0_B_4
  rw [View.read_writes_eq_canon _ _ _ (cover0_B_4 c i arg2 harg2 arg3 harg3 arg4 harg4 arg5 harg5 arg6 harg6 hc0 x0 x1 xo2 xo3)]
  unfold kernelRun0_B
  dsimp only
  sl_unfold_words
  rw [View.canon_unit_zero hz2]
  simp only [View.readAt_eq_ld, harg2.read_unread, View.ld_unit_zero (S := S8192x256) hz2]

end Pieces

/-! ## The stored value at an index -/

/-- A vector of 8192 entries cast to a column reads, at `(p, 0)`, its entry `p`. -/
private theorem shapeCast_col_apply {α : Type} (v : S8192.Idx → α) (h : S8192.ShapeCasts S8192x1) (p : Fin 8192) (u : Fin 1) :
    shapeCast S8192x1 v h (ix2 p u) = v (ix1 p) :=
  shapeCast_apply v h _ _ (by
    have hu : u.val = 0 := by omega
    rw [Shape.rowMajor_val_one, Shape.rowMajor_val_two]
    show p.val = p.val * 1 + u.val
    omega)

/-- The stored column at row `p`: the sum of the tile's row `p` over its 256 lanes (the reduction starts from zero,
    the neutral element, so nothing is added to the sum). -/
private theorem pay6_at (x0 : FVec Ideal S8192x256 .f32) (p : Fin 8192) (u : Fin 1) :
    k0_pay6 x0 (ix2 p u) = ∑ d : Fin 256, x0 (ix2 p d) := by
  unfold k0_pay6
  refine (shapeCast_col_apply _ _ p u).trans ?_
  refine (Ideal.multiReduction_add_single (φ := .f32) x0 0x00000000#32 reduces_S8192x256_S8192 (.inl rfl) rfl (ix1 p)).trans ?_
  refine Finset.sum_congr rfl fun d _ => congrArg x0 (funext fun a => Fin.ext ?_)
  match a with
  | ⟨0, _⟩ => rfl
  | ⟨1, _⟩ => rfl

/-- The same at any index of the block, once the 256 entries of the tile's row are known. -/
private theorem pay6_eq (x0 : FVec Ideal S8192x256 .f32) (y : S8192x1.Idx) (f : Fin 256 → EReal)
    (hf : ∀ d : Fin 256, x0 (ix2 (y 0 : Fin 8192) d) = f d) :
    k0_pay6 (F := Ideal) x0 y = ∑ d : Fin 256, f d := by
  obtain ⟨p, u, rfl⟩ : ∃ (p : Fin 8192) (u : Fin 1), y = ix2 p u := ⟨y 0, y 1, eq_ix2 y⟩
  rw [pay6_at]
  exact Finset.sum_congr rfl fun d _ => hf d

/-! ## From blocks to the array -/

/-- Every row's own sum, as ONE function of `x`: entry `(n, 0)` is the sum of row `n` over the 256 columns. -/
abbrev rowSums (x : S131072x256.Idx → EReal) : S131072x1.Idx → EReal :=
  fun i => ∑ d : Fin 256, x (ix2 (i 0 : Fin 131072) d)

section AtEntry
-- the TensorCore's buffer contents when the first call is entered, as a parameter
variable (V : (c : Dev nD) → (b : Ref sig .tc) → Buf (Elt Ideal) ((c : Thread nD τ).loc b))

/-- After the body at ANY point the third result's staging buffer holds the lane sums of the point's `x` tile: both
    control cases store the same thing there. -/
private theorem after_rows (c : Dev nD) (t : Fin cfg0.N) :
    (outsAt0 V c t.val t.isLt).2.2 = k0_pay6 (iblk0 V c 0 t) := by
  by_cases h0 : t.val % 8 = 0
  · rw [outsAt0_A V c t h0]
    dsimp only
    exact rowOut_A (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h0) (iblk0 V c 0 t) (iblk0 V c 1 t)
  · rw [outsAt0_B V c t h0]
    dsimp only
    exact rowOut_B (F := Ideal) c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2.1

/-- The printed index maps, decided over the 16 points: point `t` reads block `t` of `x` (8192 rows, all 256 columns)
    and writes block `t` of the row sums. -/
private theorem idx_facts : ∀ t : Fin cfg0.N, win0_0.index t (0 : Fin 2) = t.val ∧ win0_0.index t (1 : Fin 2) = 0
    ∧ win0_4.index t (0 : Fin 2) = t.val ∧ win0_4.index t (1 : Fin 2) = 0 :=
  (by decide +kernel : ∀ t : Fin grid0.N, _)

/-- What point `t` writes back is block `t` of `rowSums` of `x` as the call finds it. -/
private theorem flushed_eq (c : Dev nD) (t : Fin cfg0.N) :
    (dat0 V c).flushed 4 t = ((cfg0.win 4).blk t).view.read (Elt Ideal) (rowSums (V c main_arg0)) := by
  show (cfg0.win 4).cut (grid0.coords t) ((dat0 V c).after 4 t) = _
  rw [after0_4, after_rows]
  obtain ⟨e0, e1, e2, e3⟩ := idx_facts t
  funext y
  show k0_pay6 (iblk0 V c 0 t) y = rowSums (V c main_arg0) (((cfg0.win 4).blk t).view.emb y)
  refine pay6_eq (iblk0 V c 0 t) y _ fun d => ?_
  -- entry (p, d) of block t of x is entry (8192 t + p, d) of x, in the row of the sums this element is
  show V c main_arg0 (((cfg0.win 0).blk t).view.emb (ix2 (y 0 : Fin 8192) d))
      = V c main_arg0 (ix2 ((((cfg0.win 4).blk t).view.emb y) 0 : Fin 131072) d)
  refine congrArg (V c main_arg0) (funext fun a => Fin.ext ?_)
  match a with
  | ⟨0, _⟩ => show win0_0.index t (0 : Fin 2) * 8192 + 1 * (y 0).val = win0_4.index t (0 : Fin 2) * 8192 + 1 * (y 0).val; omega
  | ⟨1, _⟩ => show win0_0.index t (1 : Fin 2) * 256 + 1 * d.val = d.val; omega

/-- An index of the row sums is in point `t`'s block iff each coordinate is in the block's range on its axis. -/
private theorem mem_blk (t : Fin cfg0.N) (i : S131072x1.Idx) :
    i ∈ ((cfg0.win 4).blk t).view.set ↔ ∀ a : Fin 2, win0_4.index t a * S8192x1.size a ≤ (i a).val
      ∧ (i a).val < win0_4.index t a * S8192x1.size a + S8192x1.size a := by
  show i ∈ ((View.whole main_v0_2).slice (win0_4.rect t)).set ↔ _
  rw [View.set_slice_whole, Rect.mem_set_unit]
  exact Iff.rfl

/-- Row `n` of the sums is in the block of point `n / 8192`, which is written back. -/
private theorem cover (i : S131072x1.Idx) :
    ∃ t : Fin cfg0.N, (cfg0.win 4).flush t = true ∧ i ∈ ((cfg0.win 4).blk t).view.set := by
  have hN : cfg0.N = 16 := N_0
  have hi0 : (i 0).val < 131072 := (i 0).isLt
  have hi1 : (i 1).val < 1 := (i 1).isLt
  let t : Fin cfg0.N := ⟨(i 0).val / 8192, by omega⟩
  have ht : t.val = (i 0).val / 8192 := rfl
  obtain ⟨e0, e1, e2, e3⟩ := idx_facts t
  refine ⟨t, flush0_4 t, ?_⟩
  rw [mem_blk]
  intro a
  match a with
  | ⟨0, _⟩ => show win0_4.index t (0 : Fin 2) * 8192 ≤ (i 0).val ∧ (i 0).val < win0_4.index t (0 : Fin 2) * 8192 + 8192; omega
  | ⟨1, _⟩ => show win0_4.index t (1 : Fin 2) * 1 ≤ (i 1).val ∧ (i 1).val < win0_4.index t (1 : Fin 2) * 1 + 1; omega

/-- The row sums' array after the first call: `rowSums` of `x` as the call finds it. -/
private theorem final_eq (c : Dev nD) : (dat0 V c).arrAt 4 cfg0.N = rowSums (V c main_arg0) :=
  (dat0 V c).arrAt_eq_of_cover 4 (rowSums (V c main_arg0)) (fun t _ => flushed_eq V c t) cover

end AtEntry

/-- Each row's own sum. -/
theorem rowsum_at (c : Dev nD) (n : Fin 131072) :
    rowArr m ρ c (ix2 n (0 : Fin 1)) = ∑ d : Fin 256, xArr m c (ix2 n d) := by
  have h : rowArr m ρ c = rowSums (xArr m c) := (W1_arr m ρ c 4).trans (final_eq (V0 m ρ) c)
  rw [h]

end Cert.KernelIdeal.Rowsum

end
-- ==== Proof.KGlue.lean ====
/-
  The host operations between the two kernel calls: the per-row total the second call reads, element by element,
  from the first call's three arrays and the arguments.
-/
import proofs.«405188_j45363444580781_3_alg».proof.Proof.Gen.KernelIdeal.Frame
import proofs.«405188_j45363444580781_3_alg».proof.Proof.KArrays
import proofs.«405188_j45363444580781_3_alg».proof.Proof.Spec
import proofs.«405188_j45363444580781_3_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws
import Idealize.ShloMosaic.Lib.IdealHost
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Glue

open Cert.KernelIdeal Cert.KernelIdeal.Gen Cert.KernelIdeal.Arr

variable (m : (ℓ : Loc nD τ sig) → Buf (Elt Ideal) ℓ) (ρ : Dev nD → PrngReg)

/-! ## The seven stretches of host operations, each as a function of the contents before it -/

/-- Float, word and bit arrays of a literal shape. -/
private abbrev VF (s : Shape) : Type := FVec Ideal s .f32
private abbrev VI (s : Shape) : Type := IVec s 32
private abbrev VB (s : Shape) : Type := IVec s 1

/-- The two halves of a 128-row table added: row `g` is `0 + (row g + row 64+g)`. -/
private def halves256 (S : VF S128x256) : VF S64x256 :=
  Host.reduceAdd (shapeCast S2x64x256 S shapeCasts_S128x256_S2x64x256) (constant S_ .f32 0x00000000#32 : VF S_)
    reducesTo_S2x64x256_S64x256_d0 h_S_

/-- The group counts: the two halves of the count table added, lane 0. -/
private def cntOf (C : VF S128x128) : VF S64x1 :=
  extractStridedSlice S64x1 ![0, 0]
    ((Host.reduceAdd (shapeCast S2x64x128 C shapeCasts_S128x128_S2x64x128) (constant S_ .f32 0x00000000#32 : VF S_)
      reducesTo_S2x64x128_S64x128_d0 h_S_ : VF S64x128)) slices_S64x128_S64x1_0_0

/-- "The group has a row". -/
private def hasRow (C : VF S128x128) : VB S64x1 :=
  cmpf .ogt (cntOf C) (broadcastInDim S64x1 ![] bcast_S_S64x1 (constant S_ .f32 0x00000000#32 : VF S_) : VF S64x1)

/-- The group means: sums over counts (at least one). -/
private def meanOf (S : VF S128x256) (C : VF S128x128) : VF S64x256 :=
  Host.divf (halves256 S)
    (broadcastInDim S64x256 ![0, 1] bcast_S64x1_S64x256_0_1
      ((maximumf (cntOf C) (broadcastInDim S64x1 ![] bcast_S_S64x1 (constant S_ .f32 0x3F800000#32 : VF S_) : VF S64x1) : VF S64x1)) : VF S64x256)

/-- Row 0 of `x` as a `[1, 256]` array. -/
private def row0Of (X : VF S131072x256) : VF S1x256 :=
  broadcastInDim S1x256 ![1] bcast_S256_S1x256_1
    ((shapeCast S256 (extractStridedSlice S1x256 ![0, 0] X slices_S131072x256_S1x256_0_0 : VF S1x256) shapeCasts_S1x256_S256 : VF S256))

/-- The start indices of the take: a negative word gets 64 added, then the words as a `[131072, 1]` column. -/
private def takeIdx (sub : VI S131072) : VI S131072x1 :=
  broadcastInDim S131072x1 ![0] bcast_S131072_S131072x1_0
    ((select
      ((cmpi .slt sub (broadcastInDim S131072 ![] bcast_S_S131072 (constantI S_ 32 0#32 : VI S_) : VI S131072) : VB S131072))
      ((addi sub (broadcastInDim S131072 ![] bcast_S_S131072 (constantI S_ 32 64#32 : VI S_) : VI S131072) : VI S131072))
      sub : VI S131072))

/-- "The start index is in `[0, 63]`", per row. -/
private def takeOk (idx : VI S131072x1) : VB S131072 :=
  Host.reduce IntOp.andi
    ((andi
      ((cmpi .sge idx (broadcastInDim S131072x1 ![] bcast_S_S131072x1 (constantI S_ 32 0#32 : VI S_) : VI S131072x1) : VB S131072x1))
      ((cmpi .sle idx (broadcastInDim S131072x1 ![0, 1] bcast_S1x1_S131072x1_0_1
        ((broadcastInDim S1x1 ![1] bcast_S1_S1x1_1 (constantI S1 32 63#32 : VI S1) : VI S1x1)) : VI S131072x1) : VB S131072x1)) : VB S131072x1))
    (constantI S_ 1 1#1 : VB S_) reducesTo_S131072x1_S131072_d1 h_S_

/-- The take: the table at the clamped start index where the index is in range, the NaN pattern elsewhere. -/
private def takeVec (tab : VF S64) (sub : VI S131072) : VF S131072 :=
  select (takeOk (takeIdx sub))
    ((Host.gather gather_S64_S131072x1_S131072_n_0_n_n_0_1_1 tab (takeIdx sub) : VF S131072))
    (broadcastInDim S131072 ![] bcast_S_S131072 (constant S_ .f32 0x7FC00000#32 : VF S_) : VF S131072)

section Stretches

variable (V : Valuation τ sig (Elt Ideal))

private theorem s0_v9 : (StableHlo.after hostOps1 V (Proc.devRef .tc main_v9) : VB S64x1)
    = (hasRow (V (Proc.devRef .tc main_v0_1)) : VB S64x1) := by
  after_results_simp; rfl

private theorem s0_v13 : (StableHlo.after hostOps1 V (Proc.devRef .tc main_v13) : VF S64x256)
    = (meanOf (V (Proc.devRef .tc main_v0_0)) (V (Proc.devRef .tc main_v0_1)) : VF S64x256) := by
  after_results_simp; rfl

private theorem s0_v14 : (StableHlo.after hostOps1 V (Proc.devRef .tc main_v14) : VF S1x256)
    = (row0Of (V (Proc.devRef .tc main_arg0)) : VF S1x256) := by
  after_results_simp; rfl

private theorem s1_v15 : (StableHlo.after hostOps1_1 V (Proc.devRef .tc main_v15) : VF S64x256)
    = (select (broadcastInDim S64x256 ![0, 1] bcast_S64x1_S64x256_0_1 (V (Proc.devRef .tc main_v9) : VB S64x1) : VB S64x256)
        (V (Proc.devRef .tc main_v13) : VF S64x256)
        (broadcastInDim S64x256 ![0, 1] bcast_S1x256_S64x256_0_1 (V (Proc.devRef .tc main_v14) : VF S1x256) : VF S64x256) : VF S64x256) := by
  after_results
  simp only [StableHlo.TRef.ofBuf, StableHlo.TRef.toBuf, cast_eq]

private theorem s2_v20 : (StableHlo.after hostOps1_2 V (Proc.devRef .tc main_v20) : VF S64x1)
    = (mulf (broadcastInDim S64x1 ![] bcast_S_S64x1 (shapeCast S_ (V (Proc.devRef .tc main_arg2) : VF S1) shapeCasts_S1_S_ : VF S_) : VF S64x1)
        (broadcastInDim S64x1 ![0] bcast_S64_S64x1_0
          ((Host.reduceAdd (V (Proc.devRef .tc main_v15) : VF S64x256) (constant S_ .f32 0x00000000#32 : VF S_)
            reducesTo_S64x256_S64_d1 h_S_ : VF S64)) : VF S64x1) : VF S64x1) := by
  after_results; rfl

private theorem s3_v21 : (StableHlo.after hostOps1_3 V (Proc.devRef .tc main_v21) : VF S64x1)
    = (maximumf (V (Proc.devRef .tc main_v20) : VF S64x1)
        (broadcastInDim S64x1 ![] bcast_S_S64x1 (constant S_ .f32 0x00000000#32 : VF S_) : VF S64x1) : VF S64x1) := by
  after_results
  simp only [StableHlo.TRef.ofBuf, StableHlo.TRef.toBuf, cast_eq]

private theorem s4_v24 : (StableHlo.after hostOps1_4 V (Proc.devRef .tc main_v24) : VF S64)
    = (shapeCast S64
        ((mulf (broadcastInDim S64x1 ![] bcast_S_S64x1 (constant S_ .f32 0x43000000#32 : VF S_) : VF S64x1)
          (V (Proc.devRef .tc main_v21) : VF S64x1) : VF S64x1)) shapeCasts_S64x1_S64 : VF S64) := by
  after_results; rfl

private theorem s6_v27 : (StableHlo.after hostOps1_6 V (Proc.devRef .tc main_v27) : VF S131072x1)
    = (addf (V (Proc.devRef .tc main_v0_2) : VF S131072x1)
        (broadcastInDim S131072x1 ![0] bcast_S131072_S131072x1_0 (V (Proc.devRef .tc main_v25) : VF S131072) : VF S131072x1) : VF S131072x1) := by
  after_results

private theorem s5_v25 : (StableHlo.after hostOps1_5 V (Proc.devRef .tc main_v25) : VF S131072)
    = (takeVec (V (Proc.devRef .tc main_v24)) (V (Proc.devRef .tc main_arg1)) : VF S131072) := by
  after_results_simp
  simp only [StableHlo.TRef.ofBuf, StableHlo.TRef.toBuf, cast_eq]
  rfl

end Stretches

/-! ## Buffers no host operation writes keep their contents -/

/-- The scale `Lambda` reaches the second call as launched. -/
theorem lam_eq (c : Dev nD) : lam8Arr m ρ c = lamArr m c := by
  show StableHlo.after hostOps1_6 _ (Proc.devRef .tc main_arg3) = _
  after_results_simp
  exact W1_of_ne m ρ c main_arg3 (by decide)

/-- The rows' own sums are untouched up to the last stretch. -/
private theorem W7_row (c : Dev nD) : W7 m ρ c (Proc.devRef .tc main_v0_2) = rowArr m ρ c := by
  show StableHlo.after hostOps1_5 _ (Proc.devRef .tc main_v0_2) = _
  after_results_simp

/-- The group words are as launched when the take reads them. -/
private theorem W6_sub (c : Dev nD) : W6 m ρ c (Proc.devRef .tc main_arg1) = subArr m c := by
  show StableHlo.after hostOps1_4 _ (Proc.devRef .tc main_arg1) = _
  after_results_simp
  exact (W1_arr m ρ c 1).trans (((dat0 (V0 m ρ) c).arrAt_in 1 rfl _).trans (A_eq0 (V0 m ρ) c 1))

/-- `Gamma` is as launched when the scale reads it. -/
private theorem W3_gam (c : Dev nD) : W3 m ρ c (Proc.devRef .tc main_arg2) = gamArr m c := by
  show StableHlo.after hostOps1_1 _ (Proc.devRef .tc main_arg2) = _
  after_results_simp
  exact W1_of_ne m ρ c main_arg2 (by decide)

/-- `x` is as launched when the fallback row is cut from it. -/
private theorem W1_x (c : Dev nD) : W1 m ρ c (Proc.devRef .tc main_arg0) = xArr m c :=
  (W1_arr m ρ c 0).trans (((dat0 (V0 m ρ) c).arrAt_in 0 rfl _).trans (A_eq0 (V0 m ρ) c 0))

/-! ## The stretches read at an index -/

/-- A sum over an axis of extent two has two terms. -/
private theorem sum_fin_two {n : Nat} (hn : n = 2) (F : Fin n → EReal) :
    ∑ k, F k = F ⟨0, by omega⟩ + F ⟨1, by omega⟩ := by
  subst hn; exact Fin.sum_univ_two F

private theorem halves256_at (S : VF S128x256) (g : Fin 64) (d : Fin 256) :
    halves256 S (ix2 g d) = S (ix2 (Spec.lo g) d) + S (ix2 (Spec.hi g) d) := by
  unfold halves256
  simp only [Host.reduceAdd, Ideal.hostReduceAdd_def]
  have hR : S2x64x256.Reduces [0] S64x256 := by decide
  rw [Ideal.hostReduceAdd_single reducesTo_S2x64x256_S64x256_d0 hR]
  rw [sum_fin_two (show S2x64x256.size 0 = 2 from rfl)]
  rw [shapeCast_apply S shapeCasts_S128x256_S2x64x256 _ (ix2 (Spec.lo g) d)
      (by rw [Shape.rowMajor_val_two, Shape.rowMajor_val_three]
          show g.val * 256 + d.val = (0 * 64 + g.val) * 256 + d.val; omega),
    shapeCast_apply S shapeCasts_S128x256_S2x64x256 _ (ix2 (Spec.hi g) d)
      (by rw [Shape.rowMajor_val_two, Shape.rowMajor_val_three]
          show (64 + g.val) * 256 + d.val = (1 * 64 + g.val) * 256 + d.val; omega)]
  show Ideal.ofBits .f32 0x00000000#32 + _ = _
  rw [Ideal.ofBits_zero_f32, zero_add]

private theorem cntOf_at (C : VF S128x128) (g : Fin 64) :
    cntOf C (ix2 g (0 : Fin 1)) = C (ix2 (Spec.lo g) (0 : Fin 128)) + C (ix2 (Spec.hi g) (0 : Fin 128)) := by
  unfold cntOf
  rw [extractStridedSlice_apply ![0, 0] _ slices_S64x128_S64x1_0_0 (ix2 g (0 : Fin 1)) (ix2 g (0 : Fin 128))
    (fun a => match a with
      | ⟨0, _⟩ => by show g.val = 0 + g.val; omega
      | ⟨1, _⟩ => by show (0 : Nat) = 0 + 0; rfl)]
  simp only [Host.reduceAdd, Ideal.hostReduceAdd_def]
  have hR : S2x64x128.Reduces [0] S64x128 := by decide
  rw [Ideal.hostReduceAdd_single reducesTo_S2x64x128_S64x128_d0 hR]
  rw [sum_fin_two (show S2x64x128.size 0 = 2 from rfl)]
  rw [shapeCast_apply C shapeCasts_S128x128_S2x64x128 _ (ix2 (Spec.lo g) (0 : Fin 128))
      (by rw [Shape.rowMajor_val_two, Shape.rowMajor_val_three]
          show g.val * 128 + 0 = (0 * 64 + g.val) * 128 + 0; omega),
    shapeCast_apply C shapeCasts_S128x128_S2x64x128 _ (ix2 (Spec.hi g) (0 : Fin 128))
      (by rw [Shape.rowMajor_val_two, Shape.rowMajor_val_three]
          show (64 + g.val) * 128 + 0 = (1 * 64 + g.val) * 128 + 0; omega)]
  show Ideal.ofBits .f32 0x00000000#32 + _ = _
  rw [Ideal.ofBits_zero_f32, zero_add]

/-- A select on "the group has a row" is the `if` on the count being positive. -/
private theorem select_hasRow (C : VF S128x128) (g : Fin 64) (a b : EReal) :
    Scalar.select (hasRow C (ix2 g (0 : Fin 1))) a b = if 0 < cntOf C (ix2 g (0 : Fin 1)) then a else b := by
  have e : hasRow C (ix2 g (0 : Fin 1)) = Ideal.cmp .ogt (cntOf C (ix2 g (0 : Fin 1))) 0 := by
    show Ideal.cmp .ogt (cntOf C (ix2 g (0 : Fin 1))) (Ideal.ofBits .f32 0x00000000#32) = _
    rw [Ideal.ofBits_zero_f32]
  rw [e]
  by_cases h : 0 < cntOf C (ix2 g (0 : Fin 1))
  · rw [if_pos h, show Ideal.cmp .ogt (cntOf C (ix2 g (0 : Fin 1))) 0 = 1#1 by simp [Ideal.cmp, h], select_one]
  · rw [if_neg h, show Ideal.cmp .ogt (cntOf C (ix2 g (0 : Fin 1))) 0 = 0#1 by simp [Ideal.cmp, h], select_zero]

private theorem meanOf_at (S : VF S128x256) (C : VF S128x128) (g : Fin 64) (d : Fin 256) :
    meanOf S C (ix2 g d) = Ideal.div (halves256 S (ix2 g d)) (max (cntOf C (ix2 g (0 : Fin 1))) 1) := by
  unfold meanOf
  rw [hostDivf_apply]
  rw [broadcastInDim_apply _ bcast_S64x1_S64x256_0_1 _ (ix2 g d) (ix2 g (0 : Fin 1)) (fun a => match a with
    | ⟨0, _⟩ => by show g.val = if (64 : Nat) = 1 then 0 else g.val; rw [if_neg (by decide)]
    | ⟨1, _⟩ => by show (0 : Nat) = if (1 : Nat) = 1 then 0 else d.val; rw [if_pos rfl])]
  show Ideal.div _ (max (cntOf C (ix2 g (0 : Fin 1))) (Ideal.ofBits .f32 0x3F800000#32)) = _
  rw [Ideal.ofBits_one_f32]

private theorem row0Of_at (X : VF S131072x256) (d : Fin 256) :
    row0Of X (ix2 (0 : Fin 1) d) = X (ix2 (0 : Fin 131072) d) := by
  unfold row0Of
  rw [broadcastInDim_apply _ bcast_S256_S1x256_1 _ (ix2 (0 : Fin 1) d) (ix1 d) (fun a => match a with
    | ⟨0, _⟩ => by show d.val = if (256 : Nat) = 1 then 0 else d.val; rw [if_neg (by decide)])]
  rw [shapeCast_apply _ shapeCasts_S1x256_S256 (ix1 d) (ix2 (0 : Fin 1) d)
    (by rw [Shape.rowMajor_val_two, Shape.rowMajor_val_one]; show 0 * 256 + d.val = d.val; omega)]
  exact extractStridedSlice_apply ![0, 0] X slices_S131072x256_S1x256_0_0 (ix2 (0 : Fin 1) d) (ix2 (0 : Fin 131072) d)
    (fun a => match a with
      | ⟨0, _⟩ => by show (0 : Nat) = 0 + 0; rfl
      | ⟨1, _⟩ => by show d.val = 0 + d.val; omega)

/-- The mean row where the group has a row, else row 0 of `x`. -/
private theorem where_at (c9 : VB S64x1) (v13 : VF S64x256) (v14 : VF S1x256) (g : Fin 64) (d : Fin 256) :
    (select (broadcastInDim S64x256 ![0, 1] bcast_S64x1_S64x256_0_1 c9 : VB S64x256) v13
        (broadcastInDim S64x256 ![0, 1] bcast_S1x256_S64x256_0_1 v14 : VF S64x256) : VF S64x256) (ix2 g d)
      = Scalar.select (c9 (ix2 g (0 : Fin 1))) (v13 (ix2 g d)) (v14 (ix2 (0 : Fin 1) d)) := by
  rw [select_apply]
  rw [broadcastInDim_apply _ bcast_S64x1_S64x256_0_1 c9 (ix2 g d) (ix2 g (0 : Fin 1)) (fun a => match a with
    | ⟨0, _⟩ => by show g.val = if (64 : Nat) = 1 then 0 else g.val; rw [if_neg (by decide)]
    | ⟨1, _⟩ => by show (0 : Nat) = if (1 : Nat) = 1 then 0 else d.val; rw [if_pos rfl])]
  rw [broadcastInDim_apply _ bcast_S1x256_S64x256_0_1 v14 (ix2 g d) (ix2 (0 : Fin 1) d) (fun a => match a with
    | ⟨0, _⟩ => by show (0 : Nat) = if (1 : Nat) = 1 then 0 else g.val; rw [if_pos rfl]
    | ⟨1, _⟩ => by show d.val = if (256 : Nat) = 1 then 0 else d.val; rw [if_neg (by decide)])]

/-- `Gamma[0]` times the row sum. -/
private theorem scale_at (G : VF S1) (v15 : VF S64x256) (g : Fin 64) :
    (mulf (broadcastInDim S64x1 ![] bcast_S_S64x1 (shapeCast S_ G shapeCasts_S1_S_ : VF S_) : VF S64x1)
        (broadcastInDim S64x1 ![0] bcast_S64_S64x1_0
          ((Host.reduceAdd v15 (constant S_ .f32 0x00000000#32 : VF S_) reducesTo_S64x256_S64_d1 h_S_ : VF S64)) : VF S64x1)
        : VF S64x1) (ix2 g (0 : Fin 1))
      = G (ix1 (0 : Fin 1)) * ∑ d : Fin 256, v15 (ix2 g d) := by
  rw [mulf_apply]
  rw [broadcastInDim_scalar_apply bcast_S_S64x1]
  rw [shapeCast_apply G shapeCasts_S1_S_ ix0 (ix1 (0 : Fin 1))
    (by have h1 := (S1.rowMajor (ix1 (0 : Fin 1))).isLt; have h2 := (S_.rowMajor ix0).isLt
        change _ < 1 at h1; change _ < 1 at h2; omega)]
  rw [broadcastInDim_apply _ bcast_S64_S64x1_0 _ (ix2 g (0 : Fin 1)) (ix1 g) (fun a => match a with
    | ⟨0, _⟩ => by show g.val = if (64 : Nat) = 1 then 0 else g.val; rw [if_neg (by decide)])]
  simp only [Host.reduceAdd, Ideal.hostReduceAdd_def]
  have hR : S64x256.Reduces [1] S64 := by decide
  rw [Ideal.hostReduceAdd_single reducesTo_S64x256_S64_d1 hR]
  show _ * (Ideal.ofBits .f32 0x00000000#32 + _) = _
  rw [Ideal.ofBits_zero_f32, zero_add]
  refine congrArg (_ * ·) (Finset.sum_congr rfl fun k _ => ?_)
  exact congrArg v15 (funext fun a => Fin.ext (by match a with | ⟨0, _⟩ => rfl | ⟨1, _⟩ => rfl))

/-- The clamp at zero. -/
private theorem relu_at (v20 : VF S64x1) (g : Fin 64) :
    (maximumf v20 (broadcastInDim S64x1 ![] bcast_S_S64x1 (constant S_ .f32 0x00000000#32 : VF S_) : VF S64x1) : VF S64x1)
        (ix2 g (0 : Fin 1)) = max (v20 (ix2 g (0 : Fin 1))) 0 := by
  show max _ (Ideal.ofBits .f32 0x00000000#32) = _
  rw [Ideal.ofBits_zero_f32]

/-- The factor 128, and the column read as a vector. -/
private theorem times128_at (v21 : VF S64x1) (g : Fin 64) :
    (shapeCast S64 ((mulf (broadcastInDim S64x1 ![] bcast_S_S64x1 (constant S_ .f32 0x43000000#32 : VF S_) : VF S64x1) v21 : VF S64x1))
        shapeCasts_S64x1_S64 : VF S64) (ix1 g) = ((128 : ℝ) : EReal) * v21 (ix2 g (0 : Fin 1)) := by
  rw [shapeCast_apply _ shapeCasts_S64x1_S64 (ix1 g) (ix2 g (0 : Fin 1))
    (by rw [Shape.rowMajor_val_two, Shape.rowMajor_val_one]; show g.val * 1 + 0 = g.val; omega)]
  show Ideal.ofBits .f32 0x43000000#32 * _ = _
  rw [Cert.Consts.ofBits_128]

/-- The row's own sum plus its group's entry. -/
private theorem total_sum_at (a : VF S131072x1) (b : VF S131072) (n : Fin 131072) :
    (addf a (broadcastInDim S131072x1 ![0] bcast_S131072_S131072x1_0 b : VF S131072x1) : VF S131072x1) (ix2 n (0 : Fin 1))
      = a (ix2 n (0 : Fin 1)) + b (ix1 n) := by
  rw [addf_apply]
  rw [broadcastInDim_apply _ bcast_S131072_S131072x1_0 b (ix2 n (0 : Fin 1)) (ix1 n) (fun a => match a with
    | ⟨0, _⟩ => by show n.val = if (131072 : Nat) = 1 then 0 else n.val; rw [if_neg (by decide)])]

/-! ## The take, with every group word in range -/

/-- A word that reads, signed, as a natural below 64 has that natural as its value. -/
private theorem toNat_of_toInt {a : BitVec 32} {k : Nat} (hk : k < 64) (h : a.toInt = (k : Int)) : a.toNat = k := by
  rw [BitVec.toInt_eq_toNat_cond] at h
  have := a.isLt
  split at h <;> omega

/-- A fold of `and` from 1 over bits that are all 1 is 1. -/
private theorem foldl_andi_one {ι : Type} (x : ι → BitVec 1) (hx : ∀ i, x i = 1#1) :
    ∀ l : List ι, l.foldl (fun r i => IntOp.andi r (x i)) 1#1 = 1#1
  | [] => rfl
  | a :: l => by
    have e : IntOp.andi 1#1 1#1 = 1#1 := by decide
    rw [List.foldl_cons, hx a, e]
    exact foldl_andi_one x hx l

/-- No word is negative, so the start index is the word itself. -/
private theorem takeIdx_at (sub : VI S131072) (f : Fin 131072 → Fin 64)
    (hf : ∀ n : Fin 131072, (sub (ix1 n)).toInt = ((f n).val : Int)) (p : Fin 131072) :
    takeIdx sub (ix2 p (0 : Fin 1)) = sub (ix1 p) := by
  unfold takeIdx
  rw [broadcastInDim_apply _ bcast_S131072_S131072x1_0 _ (ix2 p (0 : Fin 1)) (ix1 p) (fun a => match a with
    | ⟨0, _⟩ => by show p.val = if (131072 : Nat) = 1 then 0 else p.val; rw [if_neg (by decide)])]
  rw [select_apply]
  have hn : (sub (ix1 p)).toNat = (f p).val := toNat_of_toInt (f p).isLt (hf p)
  have hlt : (sub (ix1 p)).toNat < 2 ^ 31 := by have := (f p).isLt; omega
  have h0 : IntOp.cmpi .slt (sub (ix1 p)) 0#32 = 0#1 :=
    eq_zero_of_ne_one (fun h => absurd ((StableHlo.Predicate.slt_iff_toNat hlt (by decide)).mp h) (by simp))
  show Scalar.select (IntOp.cmpi .slt (sub (ix1 p)) 0#32) _ _ = _
  rw [h0, select_zero]

/-- Start indices all in `[0, 63]` pass the range test. -/
private theorem takeOk_at (idx : VI S131072x1) (hidx : ∀ i, (idx i).toNat ≤ 63) (p : Fin 131072) :
    takeOk idx (ix1 p) = 1#1 := by
  unfold takeOk
  rw [Host.reduce_eq_foldl]
  refine foldl_andi_one _ (fun i => ?_) _
  have hlt : (idx i).toNat < 2 ^ 31 := by have := hidx i; omega
  have h1 : IntOp.cmpi .sge (idx i) 0#32 = 1#1 :=
    (StableHlo.Predicate.sge_iff_toNat hlt (by decide)).mpr (Nat.zero_le _)
  have h2 : IntOp.cmpi .sle (idx i) 63#32 = 1#1 :=
    (StableHlo.Predicate.sle_iff_toNat hlt (by decide)).mpr (hidx i)
  show IntOp.andi (IntOp.cmpi .sge (idx i) 0#32) (IntOp.cmpi .sle (idx i) 63#32) = 1#1
  rw [h1, h2]; decide

/-- With every group word in range the take reads the table at the word. -/
private theorem takeVec_at (tab : VF S64) (sub : VI S131072) (f : Fin 131072 → Fin 64)
    (hf : ∀ n : Fin 131072, (sub (ix1 n)).toInt = ((f n).val : Int)) (n : Fin 131072) :
    takeVec tab sub (ix1 n) = tab (ix1 (f n)) := by
  have hidx : ∀ i : S131072x1.Idx, (takeIdx sub i).toNat ≤ 63 := fun i => by
    obtain ⟨p, q, rfl⟩ : ∃ (p : Fin 131072) (q : Fin 1), i = ix2 p q := ⟨i 0, i 1, eq_ix2 i⟩
    obtain rfl : q = 0 := Subsingleton.elim _ _
    rw [takeIdx_at sub f hf p, toNat_of_toInt (f p).isLt (hf p)]
    have := (f p).isLt; omega
  unfold takeVec
  rw [select_apply, takeOk_at _ hidx n, select_one]
  have e1 : (ix1 n : S131072.Idx) = Shape.Idx.ofFin n := by
    funext a; match a with | ⟨0, _⟩ => rfl
  have e2 : (StableHlo.Predicate.ixP n : S131072x1.Idx) = ix2 n (0 : Fin 1) := by
    funext a; match a with | ⟨0, _⟩ => rfl | ⟨1, _⟩ => rfl
  have hv : (takeIdx sub (StableHlo.Predicate.ixP n)).toInt = ((f n).val : Int) := by
    rw [e2, takeIdx_at sub f hf n]; exact hf n
  rw [e1, StableHlo.Predicate.gather_take gather_S64_S131072x1_S131072_n_0_n_n_0_1_1 rfl rfl rfl rfl tab _ n (by decide)]
  refine congrArg tab (funext fun a => Fin.ext ?_)
  match a with
  | ⟨0, _⟩ =>
    show min (takeIdx sub (StableHlo.Predicate.ixP n)).toInt.toNat (64 - 1) = (f n).val
    rw [hv]
    have := (f n).isLt
    omega

/-! ## Assembly -/

/-- Group `g`'s statistic as the host operations leave it. -/
private theorem stat_at (c : Dev nD) (g : Fin 64) :
    (W5 m ρ c (Proc.devRef .tc main_v21) : VF S64x1) (ix2 g (0 : Fin 1))
      = Spec.statOf (gamArr m c (ix1 (0 : Fin 1)))
          (fun d => sumsArr m ρ c (ix2 (Spec.lo g) d) + sumsArr m ρ c (ix2 (Spec.hi g) d))
          (cntArr m ρ c (ix2 (Spec.lo g) (0 : Fin 128)) + cntArr m ρ c (ix2 (Spec.hi g) (0 : Fin 128)))
          (fun d => xArr m c (ix2 (0 : Fin 131072) d)) := by
  have h9 : (W2 m ρ c (Proc.devRef .tc main_v9) : VB S64x1) = hasRow (cntArr m ρ c) := s0_v9 (W1 m ρ c)
  have h13 : (W2 m ρ c (Proc.devRef .tc main_v13) : VF S64x256) = meanOf (sumsArr m ρ c) (cntArr m ρ c) :=
    s0_v13 (W1 m ρ c)
  have h14 : (W2 m ρ c (Proc.devRef .tc main_v14) : VF S1x256) = row0Of (xArr m c) :=
    (s0_v14 (W1 m ρ c)).trans (by rw [W1_x m ρ c])
  refine (congrFun (s3_v21 (W4 m ρ c)) (ix2 g (0 : Fin 1))).trans ?_
  rw [relu_at]
  unfold Spec.statOf
  refine congrArg (fun z : EReal => max z 0) ?_
  refine (congrFun (s2_v20 (W3 m ρ c)) (ix2 g (0 : Fin 1))).trans ?_
  rw [scale_at, W3_gam m ρ c]
  refine congrArg (fun z : EReal => gamArr m c (ix1 (0 : Fin 1)) * z) (Finset.sum_congr rfl fun d _ => ?_)
  refine (congrFun (s1_v15 (W2 m ρ c)) (ix2 g d)).trans ?_
  rw [where_at, h9, h13, h14, select_hasRow, meanOf_at, halves256_at, cntOf_at, row0Of_at]

/-- Row `n` of the total: the row's own sum plus 128 times its group's statistic, the statistic computed from the
    two halves' partial sums and counts (lane 0), with row 0 of `x` as the fallback. -/
theorem total_at (c : Dev nD) (f : Fin 131072 → Fin 64)
    (hf : ∀ n : Fin 131072, (subArr m c (ix1 n)).toInt = ((f n).val : Int)) (n : Fin 131072) :
    totalArr m ρ c (ix2 n (0 : Fin 1))
      = rowArr m ρ c (ix2 n (0 : Fin 1))
        + ((128 : ℝ) : EReal) * Spec.statOf (gamArr m c (ix1 (0 : Fin 1)))
            (fun d => sumsArr m ρ c (ix2 (Spec.lo (f n)) d) + sumsArr m ρ c (ix2 (Spec.hi (f n)) d))
            (cntArr m ρ c (ix2 (Spec.lo (f n)) (0 : Fin 128)) + cntArr m ρ c (ix2 (Spec.hi (f n)) (0 : Fin 128)))
            (fun d => xArr m c (ix2 (0 : Fin 131072) d)) := by
  have h25 : (W7 m ρ c (Proc.devRef .tc main_v25) : VF S131072)
      = takeVec (W6 m ρ c (Proc.devRef .tc main_v24)) (subArr m c) :=
    (s5_v25 (W6 m ρ c)).trans (by rw [W6_sub m ρ c])
  refine (congrFun (s6_v27 (W7 m ρ c)) (ix2 n (0 : Fin 1))).trans ?_
  rw [total_sum_at, W7_row m ρ c, h25, takeVec_at _ _ f hf n]
  refine congrArg (fun z : EReal => rowArr m ρ c (ix2 n (0 : Fin 1)) + z) ?_
  refine (congrFun (s4_v24 (W5 m ρ c)) (ix1 (f n))).trans ?_
  rw [times128_at, stat_at m ρ c (f n)]

end Cert.KernelIdeal.Glue

end
-- ==== Proof.KFinal.lean ====
/-
  The second kernel call: every element of the result is max (Lambda · total of its row) 0.

  The body stores, into each block of 8192 rows of the result, the column of the block's 8192 totals scaled by the one
  entry of Lambda, clamped below at zero and broadcast over the 256 lanes. Point t of the 16 reads block t of the
  totals and writes block t of the result, so the blocks written back are the blocks of ONE function of the totals and
  Lambda, and they cover the result: row n is in the block of point n / 8192.
-/
import proofs.«405188_j45363444580781_3_alg».proof.Proof.Gen.KernelIdeal.Frame
import proofs.«405188_j45363444580781_3_alg».proof.Proof.KArrays
import proofs.«405188_j45363444580781_3_alg».proof.Proof.Spec
import proofs.«405188_j45363444580781_3_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Arr

variable (m : (ℓ : Loc nD τ sig) → Buf (Elt Ideal) ℓ) (ρ : Dev nD → PrngReg)

/-! ## The stored value at an index -/

private theorem hz2 : (![0, 0] : Fin 2 → Nat) = fun _ => 0 := funext fun a => by fin_cases a <;> rfl
private theorem hz1 : (![0] : Fin 1 → Nat) = fun _ => 0 := funext fun a => by fin_cases a <;> rfl

/-- The whole result as ONE function of the per-row totals and the scale: every column of row `n` holds
    `max (scale · total of row n) 0`. -/
abbrev scaledRows (total : S131072x1.Idx → EReal) (lam : S1.Idx → EReal) : S131072x256.Idx → EReal :=
  fun i => max (lam (ix1 (0 : Fin 1)) * total (ix2 (i 0 : Fin 131072) (0 : Fin 1))) 0

/-- A column of 8192 entries broadcast over 256 lanes reads, at `(p, q)`, the column's entry `p`. -/
private theorem broadcastTo_col_apply {α : Type} (v : S8192x1.Idx → α) (h : S8192x1.Broadcasts S8192x256)
    (p : Fin 8192) (q : Fin 256) : broadcastTo S8192x256 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's stored value at `(p, q)` of its block: the scale (the one entry of the second operand) times the first
    operand's entry of row `p`, clamped below at zero; the lane `q` does not matter. -/
private theorem pay_at (v0 : FVec Ideal S8192x1 .f32) (v2 : FVec Ideal S1 .f32) (p : Fin 8192) (q : Fin 256) :
    k1_pay1 v0 v2 (ix2 p q) = max (v2 (ix1 (0 : Fin 1)) * v0 (ix2 p (0 : Fin 1))) 0 := by
  unfold k1_pay1
  refine (broadcastTo_col_apply _ _ p q).trans ?_
  rw [shapeCast_self, shapeCast_self]
  have e : extractAt ![0] v2 inpos_S1_p0 = v2 (ix1 (0 : Fin 1)) :=
    congrArg v2 (funext fun a => Fin.ext (by match a with | ⟨0, _⟩ => rfl))
  rw [maximumf_apply, mulf_apply, broadcast_apply, broadcast_apply, e]
  show max _ (Ideal.ofBits .f32 0x00000000#32) = _
  rw [Ideal.ofBits_zero_f32]

/-- The same at any index of the block, once the two entries it reads are known. -/
private theorem pay_eq (v0 : FVec Ideal S8192x1 .f32) (v2 : FVec Ideal S1 .f32) (y : S8192x256.Idx) (l r : EReal)
    (hl : v2 (ix1 (0 : Fin 1)) = l) (hr : v0 (ix2 (y 0 : Fin 8192) (0 : Fin 1)) = r) :
    k1_pay1 (F := Ideal) v0 v2 y = max (l * r) 0 := by
  obtain ⟨p, q, rfl⟩ : ∃ (p : Fin 8192) (q : Fin 256), y = ix2 p q := ⟨y 0, y 1, eq_ix2 y⟩
  rw [pay_at, hl, ← hr]

/-! ## From blocks to the array -/

section AtEntry
-- the TensorCore's buffer contents when the second call is entered, as a parameter
variable (V : (c : Dev nD) → (b : Ref sig .tc) → Buf (Elt Ideal) ((c : Thread nD τ).loc b))

/-- The printed index maps, decided over the 16 points: point `t` reads block `t` of the totals, the whole scale,
    and writes block `t` of the result. -/
private theorem idx_facts : ∀ t : Fin cfg1.N, win1_0.index t (0 : Fin 2) = t.val ∧ win1_0.index t (1 : Fin 2) = 0
    ∧ win1_1.index t (0 : Fin 1) = 0 ∧ win1_2.index t (0 : Fin 2) = t.val ∧ win1_2.index t (1 : Fin 2) = 0 :=
  (by decide +kernel : ∀ t : Fin grid1.N, _)

/-- What point `t` writes back is block `t` of `scaledRows` of the totals and the scale as the call finds them. -/
private theorem flushed_eq (c : Dev nD) (t : Fin cfg1.N) :
    (dat1 V c).flushed 2 t
      = ((cfg1.win 2).blk t).view.read (Elt Ideal) (scaledRows (V c main_v27) (V c main_arg3)) := by
  show (cfg1.win 2).cut (grid1.coords t) ((dat1 V c).after 2 t) = _
  rw [after1_2]
  unfold out1_2
  rw [View.canon_unit_zero hz2]
  simp only [View.ld_unit_zero (S := S8192x1) hz2, View.ld_unit_zero (S := S1) hz1]
  obtain ⟨e0, e1, e2, e3, e4⟩ := idx_facts t
  funext y
  show k1_pay1 (iblk1 V c 0 t) (iblk1 V c 1 t) y
      = scaledRows (V c main_v27) (V c main_arg3) (((cfg1.win 2).blk t).view.emb y)
  refine pay_eq (iblk1 V c 0 t) (iblk1 V c 1 t) y _ _ ?_ ?_
  · -- the scale's block is the whole one-entry array
    show V c main_arg3 (((cfg1.win 1).blk t).view.emb (ix1 (0 : Fin 1))) = V c main_arg3 (ix1 (0 : Fin 1))
    refine congrArg (V c main_arg3) (funext fun a => Fin.ext ?_)
    match a with
    | ⟨0, _⟩ => show win1_1.index t (0 : Fin 1) * 1 + 1 * 0 = 0; omega
  · -- row p of the totals' block t is row 8192 t + p of the totals, the row of the result this element is in
    show V c main_v27 (((cfg1.win 0).blk t).view.emb (ix2 (y 0 : Fin 8192) (0 : Fin 1)))
        = V c main_v27 (ix2 ((((cfg1.win 2).blk t).view.emb y) 0 : Fin 131072) (0 : Fin 1))
    refine congrArg (V c main_v27) (funext fun a => Fin.ext ?_)
    match a with
    | ⟨0, _⟩ => show win1_0.index t (0 : Fin 2) * 8192 + 1 * (y 0).val = win1_2.index t (0 : Fin 2) * 8192 + 1 * (y 0).val; omega
    | ⟨1, _⟩ => show win1_0.index t (1 : Fin 2) * 1 + 1 * 0 = 0; omega

/-- An index of the result is in point `t`'s block iff each coordinate is in the block's range on its axis. -/
private theorem mem_blk (t : Fin cfg1.N) (i : S131072x256.Idx) :
    i ∈ ((cfg1.win 2).blk t).view.set ↔ ∀ a : Fin 2, win1_2.index t a * S8192x256.size a ≤ (i a).val
      ∧ (i a).val < win1_2.index t a * S8192x256.size a + S8192x256.size a := by
  show i ∈ ((View.whole main_v28).slice (win1_2.rect t)).set ↔ _
  rw [View.set_slice_whole, Rect.mem_set_unit]
  exact Iff.rfl

/-- Row `n` of the result is in the block of point `n / 8192`, which is written back. -/
private theorem cover (i : S131072x256.Idx) :
    ∃ t : Fin cfg1.N, (cfg1.win 2).flush t = true ∧ i ∈ ((cfg1.win 2).blk t).view.set := by
  have hN : cfg1.N = 16 := N_1
  have hi0 : (i 0).val < 131072 := (i 0).isLt
  have hi1 : (i 1).val < 256 := (i 1).isLt
  let t : Fin cfg1.N := ⟨(i 0).val / 8192, by omega⟩
  have ht : t.val = (i 0).val / 8192 := rfl
  obtain ⟨e0, e1, e2, e3, e4⟩ := idx_facts t
  refine ⟨t, flush1_2 t, ?_⟩
  rw [mem_blk]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 256 ≤ (i 1).val ∧ (i 1).val < win1_2.index t (1 : Fin 2) * 256 + 256; omega

/-- The result array after the second call: `scaledRows` of the totals and the scale as the call finds them. -/
private theorem final_eq (c : Dev nD) :
    (dat1 V c).arrAt 2 cfg1.N = scaledRows (V c main_v27) (V c main_arg3) :=
  (dat1 V c).arrAt_eq_of_cover 2 (scaledRows (V c main_v27) (V c main_arg3)) (fun t _ => flushed_eq V c t) cover

end AtEntry

/-- Element (n, j) of the result array after the run. -/
theorem out_at (c : Dev nD) (n : Fin 131072) (j : Fin 256) :
    outArr m ρ c (ix2 n j) = max (lam8Arr m ρ c (ix1 (0 : Fin 1)) * totalArr m ρ c (ix2 n (0 : Fin 1))) 0 := by
  have h : outArr m ρ c = scaledRows (totalArr m ρ c) (lam8Arr m ρ c) :=
    (W9_arr m ρ c 2).trans (final_eq (V8 m ρ) c)
  rw [h]

end Cert.KernelIdeal.Final

end
-- ==== Proof.Algebra.lean ====
/-
  The laws of sums over the extended reals that join the two programs: a sum over all rows taken tile by tile, a
  one-hot factor as a filter, and a constant summed 128 times.
-/
import proofs.«405188_j45363444580781_3_alg».proof.Proof.Spec
import Mathlib.Data.EReal.Operations
import Mathlib.Algebra.BigOperators.Fin
import Mathlib.Logic.Equiv.Fin.Basic
import Idealize.ShloMosaic.Lib.StableHlo.Predicate

noncomputable section

open scoped BigOperators

namespace Cert.Algebra

open Cert.Spec

/-- A sum over `m · n` indices is the double sum over the quotient and the remainder. -/
private theorem sum_fin_mul {M : Type*} [AddCommMonoid M] (a b : Nat) (F : Fin (a * b) → M) :
    ∑ k : Fin (a * b), F k = ∑ s : Fin a, ∑ q : Fin b, F (finProdFinEquiv (s, q)) := by
  rw [← Equiv.sum_comp (finProdFinEquiv (m := a) (n := b)) F, Fintype.sum_prod_type]

/-- A sum over the 131072 rows is the sum over the two halves, the eight tiles of a half and the 8192 rows of a tile. -/
theorem sum_rows {M : Type*} [AddCommMonoid M] (F : Fin 131072 → M) :
    ∑ c : Fin 2, ∑ i : Fin 8, ∑ q : Fin 8192, F (row c i q) = ∑ n : Fin 131072, F n := by
  have e1 : 16 * 8192 = 131072 := by norm_num
  have e2 : 2 * 8 = 16 := by norm_num
  have h1 : ∑ n : Fin 131072, F n
      = ∑ t : Fin 16, ∑ q : Fin 8192, F (finCongr e1 (finProdFinEquiv (m := 16) (n := 8192) (t, q))) := by
    rw [← Equiv.sum_comp (finCongr e1) F]
    exact sum_fin_mul 16 8192 fun k => F (finCongr e1 k)
  have h2 : ∀ G : Fin 16 → M,
      ∑ t : Fin 16, G t = ∑ c : Fin 2, ∑ i : Fin 8, G (finCongr e2 (finProdFinEquiv (m := 2) (n := 8) (c, i))) := by
    intro G
    rw [← Equiv.sum_comp (finCongr e2) G]
    exact sum_fin_mul 2 8 fun k => G (finCongr e2 k)
  rw [h1, h2]
  refine Finset.sum_congr rfl fun c _ => Finset.sum_congr rfl fun i _ => Finset.sum_congr rfl fun q _ => ?_
  refine congrArg F (Fin.ext ?_)
  simp only [row, finCongr_apply, Fin.coe_cast, finProdFinEquiv_apply_val]
  omega

/-- A group word that reads as the number of group `f n` is the word of `g` exactly when `f n = g`. -/
private theorem word_eq_iff (w : BitVec 32) (k g : Fin 64) (hw : w.toInt = (k.val : Int)) :
    w = BitVec.ofNat 32 g.val ↔ k = g := by
  have hg : (BitVec.ofNat 32 g.val).toInt = (g.val : Int) :=
    Idealize.ShloMosaic.StableHlo.Predicate.toInt_ofNat_small g.val (by have := g.isLt; omega)
  constructor
  · intro h
    apply Fin.ext
    have : (k.val : Int) = (g.val : Int) := by rw [← hw, h, hg]
    omega
  · intro h
    apply BitVec.eq_of_toInt_eq
    rw [hw, hg, h]

/-- A one-hot factor times a value, summed over the rows, is the value summed over the rows the factor selects. -/
theorem sum_hit (w : Fin 131072 → BitVec 32) (f : Fin 131072 → Fin 64)
    (hf : ∀ n, (w n).toInt = ((f n).val : Int)) (g : Fin 64) (X : Fin 131072 → EReal) :
    ∑ n : Fin 131072, hit (w n) g.val * X n = ∑ n ∈ Finset.univ.filter (fun n => f n = g), X n := by
  rw [Finset.sum_filter]
  refine Finset.sum_congr rfl fun n _ => ?_
  unfold hit
  by_cases h : f n = g
  · rw [if_pos ((word_eq_iff (w n) (f n) g (hf n)).mpr h), if_pos h, one_mul]
  · rw [if_neg (fun e => h ((word_eq_iff (w n) (f n) g (hf n)).mp e)), if_neg h, zero_mul]

/-- The same for the bare one-hot factor: it counts the selected rows. -/
theorem sum_hit_one (w : Fin 131072 → BitVec 32) (f : Fin 131072 → Fin 64)
    (hf : ∀ n, (w n).toInt = ((f n).val : Int)) (g : Fin 64) :
    ∑ n : Fin 131072, hit (w n) g.val = ∑ _n ∈ Finset.univ.filter (fun n => f n = g), (1 : EReal) := by
  rw [← sum_hit w f hf g (fun _ => 1)]
  refine Finset.sum_congr rfl fun n _ => ?_
  rw [mul_one]

/-- A natural multiple of an extended real is the product with the natural number (distributivity holds over
    nonnegative multipliers). -/
private theorem nsmul_eq (a : EReal) : ∀ k : Nat, k • a = ((k : ℝ) : EReal) * a
  | 0 => by simp
  | k + 1 => by
    rw [succ_nsmul, nsmul_eq a k]
    have hk : (0 : EReal) ≤ ((k : ℝ) : EReal) := by exact_mod_cast Nat.cast_nonneg k
    have h1 : (0 : EReal) ≤ ((1 : ℝ) : EReal) := by exact_mod_cast zero_le_one
    have : (((k + 1 : Nat) : ℝ) : EReal) = ((k : ℝ) : EReal) + ((1 : ℝ) : EReal) := by
      rw [← EReal.coe_add]; push_cast; rfl
    rw [this, EReal.right_distrib_of_nonneg hk h1, EReal.coe_one, one_mul]

/-- A value summed 128 times is 128 times the value (no finiteness needed: the multiplier is a natural number). -/
theorem sum_const_128 (a : EReal) : ∑ _j : Fin 128, a = ((128 : ℝ) : EReal) * a := by
  rw [Finset.sum_const, Finset.card_univ, Fintype.card_fin, nsmul_eq]
  norm_num

end Cert.Algebra

end
-- ==== Proof.KValue.lean ====
/-
  The kernel program's result, element by element, is the specification's row value: the second call's
  max (Lambda · total) 0 over the host operations' total, whose group statistic is computed from the two halves'
  partial sums and counts — and the two halves, tile by tile, add up to the sums and counts over all rows of the group.
-/
import proofs.«405188_j45363444580781_3_alg».proof.Proof.KReduce
import proofs.«405188_j45363444580781_3_alg».proof.Proof.KRowsum
import proofs.«405188_j45363444580781_3_alg».proof.Proof.KGlue
import proofs.«405188_j45363444580781_3_alg».proof.Proof.KFinal
import proofs.«405188_j45363444580781_3_alg».proof.Proof.Algebra

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.KernelIdeal.Arr

variable (m : (ℓ : Loc nD τ sig) → Buf (Elt Ideal) ℓ) (ρ : Dev nD → PrngReg)

/-- Row `64 c' + g` of the partial sums is half `c'`'s share of group `g`. -/
theorem sums_half (c : Dev nD) (c' : Fin 2) (g : Fin 64) (d : Fin 256) (r : Fin 128) (hr : r.val = 64 * c'.val + g.val) :
    sumsArr m ρ c (ix2 r d)
      = ∑ i : Fin 8, ∑ q : Fin 8192,
          Spec.hit (subArr m c (ix1 (Spec.row c' i q))) g.val * xArr m c (ix2 (Spec.row c' i q) d) := by
  rw [Reduce.sums_at]
  have e1 : (⟨r.val / 64, by have := r.isLt; omega⟩ : Fin 2) = c' :=
    Fin.ext (by show r.val / 64 = c'.val; have := g.isLt; omega)
  have e2 : r.val % 64 = g.val := by have := g.isLt; omega
  rw [e1, e2]

/-- Row `64 c' + g` of the partial counts (any lane) is half `c'`'s share of group `g`'s count. -/
theorem counts_half (c : Dev nD) (c' : Fin 2) (g : Fin 64) (l : Fin 128) (r : Fin 128) (hr : r.val = 64 * c'.val + g.val) :
    cntArr m ρ c (ix2 r l)
      = ∑ i : Fin 8, ∑ q : Fin 8192, Spec.hit (subArr m c (ix1 (Spec.row c' i q))) g.val := by
  rw [Reduce.counts_at]
  have e1 : (⟨r.val / 64, by have := r.isLt; omega⟩ : Fin 2) = c' :=
    Fin.ext (by show r.val / 64 = c'.val; have := g.isLt; omega)
  have e2 : r.val % 64 = g.val := by have := g.isLt; omega
  rw [e1, e2]

/-- The two halves' partial sums add up to the group's column sum over all rows. -/
theorem sums_total (c : Dev nD) (f : Fin 131072 → Fin 64)
    (hf : ∀ n : Fin 131072, (subArr m c (ix1 n)).toInt = ((f n).val : Int)) (g : Fin 64) (d : Fin 256) :
    sumsArr m ρ c (ix2 (Spec.lo g) d) + sumsArr m ρ c (ix2 (Spec.hi g) d) = Spec.segSum (xArr m c) f g d := by
  rw [sums_half m ρ c 0 g d (Spec.lo g) (by simp [Spec.lo]), sums_half m ρ c 1 g d (Spec.hi g) (by simp [Spec.hi])]
  have key := Algebra.sum_rows (fun n => Spec.hit (subArr m c (ix1 n)) g.val * xArr m c (ix2 n d))
  simp only [Fin.sum_univ_two] at key
  rw [key]
  exact Algebra.sum_hit (fun n => subArr m c (ix1 n)) f hf g (fun n => xArr m c (ix2 n d))

/-- The two halves' partial counts add up to the group's count. -/
theorem counts_total (c : Dev nD) (f : Fin 131072 → Fin 64)
    (hf : ∀ n : Fin 131072, (subArr m c (ix1 n)).toInt = ((f n).val : Int)) (g : Fin 64) (l : Fin 128) :
    cntArr m ρ c (ix2 (Spec.lo g) l) + cntArr m ρ c (ix2 (Spec.hi g) l) = Spec.segCnt f g := by
  rw [counts_half m ρ c 0 g l (Spec.lo g) (by simp [Spec.lo]), counts_half m ρ c 1 g l (Spec.hi g) (by simp [Spec.hi])]
  have key := Algebra.sum_rows (fun n => Spec.hit (subArr m c (ix1 n)) g.val)
  simp only [Fin.sum_univ_two] at key
  rw [key]
  exact Algebra.sum_hit_one (fun n => subArr m c (ix1 n)) f hf g

/-- Element (n, j) of the kernel program's result is the specification's value of row n. -/
theorem kernel_at (c : Dev nD) (f : Fin 131072 → Fin 64)
    (hf : ∀ n : Fin 131072, (subArr m c (ix1 n)).toInt = ((f n).val : Int)) (n : Fin 131072) (j : Fin 256) :
    outArr m ρ c (ix2 n j) = Spec.resultAt (xArr m c) f (gamArr m c) (lamArr m c) n := by
  rw [Final.out_at, Glue.lam_eq, Glue.total_at m ρ c f hf n, Rowsum.rowsum_at]
  have hs : (fun d => sumsArr m ρ c (ix2 (Spec.lo (f n)) d) + sumsArr m ρ c (ix2 (Spec.hi (f n)) d))
      = fun d => Spec.segSum (xArr m c) f (f n) d := funext fun d => sums_total m ρ c f hf (f n) d
  rw [hs, counts_total m ρ c f hf (f n) 0]
  rfl

end Cert.KernelIdeal.KValue

end
-- ==== Proof.LibScatterRows.lean ====
/-
  A host scatter with an add body whose one index word per update names a row (an entry of a vector, or a row of a matrix), read at one element when every word is in range.
-/
import Idealize.ShloMosaic.Lib.ValueIdx

noncomputable section

open scoped BigOperators

namespace Cert.GNN.Lib

open Idealize.ShloMosaic Idealize.ShloMosaic.ValueIdx

/-- Of two axes, axis 0 is not in the list holding axis 1 alone … -/
private theorem fin2_zero_notMem : (0 : Fin 2) ∉ ([1] : List (Fin 2)) := by decide
/-- … and axis 1 is not in the list holding axis 0 alone. -/
private theorem fin2_one_notMem : (1 : Fin 2) ∉ ([0] : List (Fin 2)) := by decide

/-- A rank-1 index set is its one coordinate's range. -/
private def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
private theorem sum_idx1 {M : Type*} [AddCommMonoid M] {n : Nat} (g : (⟨1, ![n]⟩ : Shape).Idx → M) :
    ∑ j, g j = ∑ a : Fin n, g (ix1 a) := by
  rw [← Equiv.sum_comp (idxEquiv1 (n := n)).symm g]
  rfl

/-- Update e of the vector scatter lands on the entry its index word names: the start on the one operand axis is
    that word, the window coordinate there is 0 (the axis is inserted), and the word is in range. -/
private theorem vec_resultIdx {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (idx : IVec ⟨2, ![E, 1]⟩ w)
    (f : Fin E → Fin N) (hf : ∀ e : Fin E, (idx (ix2 e (0 : Fin 1))).toInt = ((f e).val : Int)) (e : Fin E) :
    d.resultIdx? (ix1 e) idx = some (ix1 (f e)) := by
  obtain ⟨uw, iw, sd, iv, wf⟩ := d
  simp only at h1 h2 h3 h4
  subst h1 h2 h3 h4
  set D : ScatterDims ⟨1, ![N]⟩ ⟨2, ![E, 1]⟩ ⟨1, ![E]⟩ := ⟨[], [0], [0], 1, wf⟩ with hD
  have hwin : ∀ a, D.window (ix1 e) a = 0 := by
    intro a
    obtain rfl : a = 0 := Subsingleton.elim _ _
    unfold ScatterDims.window
    split
    · rename_i h; exact absurd h (List.not_mem_nil (a := (0 : Fin 1)))
    · rfl
  have hstart : ∀ a, D.start (ix1 e) idx a = ((f e).val : Int) := by
    intro a
    obtain rfl : a = 0 := Subsingleton.elim _ _
    unfold ScatterDims.start
    rw [dif_pos (show (0 : Fin 1) ∈ D.scatterDimsToOperandDims from List.mem_singleton.mpr rfl)]
    rw [← hf e]
    congr 2
    funext b; refine Fin.ext ?_
    match b with
    | ⟨0, _⟩ => rfl
    | ⟨1, _⟩ => rfl
  unfold ScatterDims.resultIdx?
  have hall : ∀ a, 0 ≤ D.start (ix1 e) idx a + D.window (ix1 e) a ∧
      D.start (ix1 e) idx a + D.window (ix1 e) a < (⟨1, ![N]⟩ : Shape).size a := by
    intro a
    rw [hwin, hstart]
    obtain rfl : a = 0 := Subsingleton.elim _ _
    have := (f e).isLt
    constructor
    · omega
    · show ((f e).val : Int) + ((0 : Nat) : Int) < (N : Int)
      omega
  rw [dif_pos hall]
  congr 1
  funext a
  refine Fin.ext ?_
  obtain rfl : a = 0 := Subsingleton.elim _ _
  show (D.start (ix1 e) idx 0 + D.window (ix1 e) 0).toNat = (f e).val
  rw [hwin, hstart]
  omega

/-- Scalars added into a vector: entry i of the result is entry i of the operand plus the updates whose index word
    names i. -/
theorem scatterAdd_vec {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (f : Fin E → Fin N) (hf : ∀ e : Fin E, (idx (ix2 e (0 : Fin 1))).toInt = ((f e).val : Int)) (i : Fin N) :
    Ideal.hostScatterAdd d x idx upd (ix1 i) = x (ix1 i) + ∑ e ∈ Finset.univ.filter (fun e => f e = i), upd (ix1 e) := by
  unfold Ideal.hostScatterAdd
  congr 1
  rw [Finset.sum_filter, Finset.sum_filter, sum_idx1]
  refine Finset.sum_congr rfl fun e _ => ?_
  rw [vec_resultIdx d h1 h2 h3 h4 idx f hf e]
  refine if_congr ?_ rfl rfl
  constructor
  · intro h
    have h' := congrFun (Option.some.inj h) 0
    exact h'
  · intro h
    rw [h]

/-- Update (e, k') of the row scatter lands on column k' of the row its index word names: on the row axis the start
    is that word and the window coordinate 0 (the axis is inserted); on the column axis the start is 0 (the map does
    not name it) and the window coordinate is k'. -/
private theorem rows_resultIdx {N E K w : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1)
    (idx : IVec ⟨2, ![E, 1]⟩ w)
    (f : Fin E → Fin N) (hf : ∀ e : Fin E, (idx (ix2 e (0 : Fin 1))).toInt = ((f e).val : Int)) (e : Fin E) (k' : Fin K) :
    d.resultIdx? (ix2 e k') idx = some (ix2 (f e) k') := by
  obtain ⟨uw, iw, sd, iv, wf⟩ := d
  simp only at h1 h2 h3 h4
  subst h1 h2 h3 h4
  set D : ScatterDims ⟨2, ![N, K]⟩ ⟨2, ![E, 1]⟩ ⟨2, ![E, K]⟩ := ⟨[1], [0], [0], 1, wf⟩ with hD
  have hwin0 : D.window (ix2 e k') 0 = 0 := by
    unfold ScatterDims.window
    split
    · rename_i h; exact absurd h fin2_zero_notMem
    · rfl
  have hwin1 : D.window (ix2 e k') 1 = k'.val := by
    unfold ScatterDims.window
    split
    · rfl
    · rename_i h; exact absurd (show (1 : Fin 2) ∈ ([1] : List (Fin 2)) from List.mem_singleton.mpr rfl) h
  have hstart0 : D.start (ix2 e k') idx 0 = ((f e).val : Int) := by
    unfold ScatterDims.start
    rw [dif_pos (show (0 : Fin 2) ∈ D.scatterDimsToOperandDims from List.mem_singleton.mpr rfl)]
    rw [← hf e]
    congr 2
    funext b; refine Fin.ext ?_
    match b with
    | ⟨0, _⟩ => rfl
    | ⟨1, _⟩ => rfl
  have hstart1 : D.start (ix2 e k') idx 1 = 0 := by
    unfold ScatterDims.start
    split
    · rename_i h; exact absurd h fin2_one_notMem
    · rfl
  unfold ScatterDims.resultIdx?
  have hall : ∀ a, 0 ≤ D.start (ix2 e k') idx a + D.window (ix2 e k') a ∧
      D.start (ix2 e k') idx a + D.window (ix2 e k') a < (⟨2, ![N, K]⟩ : Shape).size a := by
    intro a
    match a with
    | ⟨0, _⟩ =>
      show 0 ≤ D.start (ix2 e k') idx 0 + D.window (ix2 e k') 0 ∧
        D.start (ix2 e k') idx 0 + D.window (ix2 e k') 0 < (N : Int)
      rw [hwin0, hstart0]
      have := (f e).isLt
      omega
    | ⟨1, _⟩ =>
      show 0 ≤ D.start (ix2 e k') idx 1 + D.window (ix2 e k') 1 ∧
        D.start (ix2 e k') idx 1 + D.window (ix2 e k') 1 < (K : Int)
      rw [hwin1, hstart1]
      have := k'.isLt
      omega
  rw [dif_pos hall]
  congr 1
  funext a
  refine Fin.ext ?_
  match a with
  | ⟨0, _⟩ =>
    show (D.start (ix2 e k') idx 0 + D.window (ix2 e k') 0).toNat = (f e).val
    rw [hwin0, hstart0]
    omega
  | ⟨1, _⟩ =>
    show (D.start (ix2 e k') idx 1 + D.window (ix2 e k') 1).toNat = k'.val
    rw [hwin1, hstart1]
    omega

/-- Rows added into a matrix: row i of the result is row i of the operand plus the update rows whose index word names i. -/
theorem scatterAdd_rows {N E K w : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1)
    (x : (⟨2, ![N, K]⟩ : Shape).Idx → EReal) (idx : IVec ⟨2, ![E, 1]⟩ w) (upd : (⟨2, ![E, K]⟩ : Shape).Idx → EReal)
    (f : Fin E → Fin N) (hf : ∀ e : Fin E, (idx (ix2 e (0 : Fin 1))).toInt = ((f e).val : Int)) (i : Fin N) (k : Fin K) :
    Ideal.hostScatterAdd d x idx upd (ix2 i k)
      = x (ix2 i k) + ∑ e ∈ Finset.univ.filter (fun e => f e = i), upd (ix2 e k) := by
  unfold Ideal.hostScatterAdd
  congr 1
  rw [Finset.sum_filter, Finset.sum_filter, sum_idx2]
  refine Finset.sum_congr rfl fun e _ => ?_
  have hinner : ∀ k' : Fin K,
      (if d.resultIdx? (ix2 e k') idx = some (ix2 i k) then upd (ix2 e k') else 0)
        = if k' = k then (if f e = i then upd (ix2 e k') else 0) else 0 := by
    intro k'
    rw [rows_resultIdx d h1 h2 h3 h4 idx f hf e k']
    by_cases hk : k' = k
    · rw [if_pos hk]
      refine if_congr ?_ rfl rfl
      constructor
      · intro h
        exact congrFun (Option.some.inj h) 0
      · intro h
        rw [h, hk]
    · rw [if_neg hk, if_neg]
      intro h
      exact hk (congrFun (Option.some.inj h) 1)
  rw [Finset.sum_congr rfl fun k' _ => hinner k', Finset.sum_ite_eq' Finset.univ k]
  rw [if_pos (Finset.mem_univ k)]

end Cert.GNN.Lib

end
-- ==== Proof.LibGather.lean ====
/-
  A host gather of whole rows of a matrix, read at one element when every index word is in range.
-/
import Idealize.ShloMosaic.Lib.ValueIdx

noncomputable section

open scoped BigOperators

namespace Cert.GNN.Lib

open Idealize.ShloMosaic Idealize.ShloMosaic.ValueIdx

/-- The dimension numbers of a gather of whole rows: operand `[N, K]`, one index word per result row
    (`[E, 1]`), result `[E, K]`; the row axis is collapsed and named by the index, the column axis is
    the one offset axis and is taken whole. -/
private abbrev rowDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- On the row axis the operand index is the index word of the result's row, read signed and clamped
    into `[0, N − 1]`: no batching, and the collapsed axis has no offset. -/
private theorem rowDims_operandIdx_row {N E K w : Nat}
    (wf : GatherDims.WF ⟨2, ![N, K]⟩ ⟨2, ![E, 1]⟩ ⟨2, ![E, K]⟩ [1] [0] [] [0] [] 1 ![1, K])
    (idx : IVec ⟨2, ![E, 1]⟩ w) (e : Fin E) (k : Fin K) :
    ((rowDims N E K wf).operandIdx (ix2 e k) idx 0).val = min (idx (ix2 e (0 : Fin 1))).toInt.toNat (N - 1) := by
  show (rowDims N E K wf).start (ix2 e k) idx 0 + (rowDims N E K wf).batchCoord (ix2 e k) 0
    + (rowDims N E K wf).offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  have hmem : (0 : Fin 2) ∈ (rowDims N E K wf).startIndexMap := List.mem_singleton.mpr rfl
  unfold GatherDims.start
  rw [dif_pos hmem]
  have hsi : (rowDims N E K wf).siIdx (ix2 e k)
      ⟨List.idxOf (0 : Fin 2) (rowDims N E K wf).startIndexMap, List.idxOf_lt_length_iff.2 hmem⟩ = ix2 e (0 : Fin 1) := by
    funext b; refine Fin.ext ?_
    match b with
    | ⟨0, _⟩ => rfl
    | ⟨1, _⟩ => rfl
  rw [hsi]
  rfl

/-- On the column axis the operand index is the result's column: the start is zero (the index names no
    column), and the offset axis carries the coordinate. -/
private theorem rowDims_operandIdx_col {N E K w : Nat}
    (wf : GatherDims.WF ⟨2, ![N, K]⟩ ⟨2, ![E, 1]⟩ ⟨2, ![E, K]⟩ [1] [0] [] [0] [] 1 ![1, K])
    (idx : IVec ⟨2, ![E, 1]⟩ w) (e : Fin E) (k : Fin K) :
    ((rowDims N E K wf).operandIdx (ix2 e k) idx 1).val = k.val := by
  show (rowDims N E K wf).start (ix2 e k) idx 1 + (rowDims N E K wf).batchCoord (ix2 e k) 1
    + (rowDims N E K wf).offCoord (ix2 e k) 1 = _
  rw [GatherDims.batchCoord_eq_zero _ _ _ List.not_mem_nil, Nat.add_zero]
  have hne : ∀ l : List (Fin 2), l = [0] → (1 : Fin 2) ∉ l := fun l hl h => by
    subst hl; exact absurd (congrArg Fin.val (List.mem_singleton.mp h)) Nat.one_ne_zero
  have hnot : (1 : Fin 2) ∉ (rowDims N E K wf).startIndexMap := hne _ rfl
  have hk : (1 : Fin 2) ∈ (rowDims N E K wf).sKept :=
    (GatherDims.mem_sKept _ _).mpr ⟨hne _ rfl, List.not_mem_nil⟩
  unfold GatherDims.start GatherDims.offCoord
  rw [dif_neg hnot, dif_pos hk, Nat.zero_add]
  rfl

/-- Whole rows gathered from a matrix: row e of the result is the operand's row that index word e names. -/
theorem gather_rows {α : Type} {N E K w : Nat} (d : GatherDims ⟨2, ![N, K]⟩ ⟨2, ![E, 1]⟩ ⟨2, ![E, K]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, K])
    (x : (⟨2, ![N, K]⟩ : Shape).Idx → α) (idx : IVec ⟨2, ![E, 1]⟩ w)
    (f : Fin E → Fin N) (hf : ∀ e : Fin E, (idx (ix2 e (0 : Fin 1))).toInt = ((f e).val : Int)) (e : Fin E) (k : Fin K) :
    Host.gather d x idx (ix2 e k) = x (ix2 (f e) k) := by
  obtain ⟨od, cs, ob, sb, sim, iv, ss, wf⟩ := d
  simp only at h1 h2 h3 h4 h5 h6 h7
  subst h1 h2 h3 h4 h5 h6 h7
  show x ((rowDims N E K wf).operandIdx (ix2 e k) idx) = _
  congr 1
  funext a
  refine Fin.ext ?_
  match a with
  | ⟨0, _⟩ =>
    have h0 := (f e).isLt
    have := rowDims_operandIdx_row wf idx e k
    rw [hf e, Int.toNat_natCast] at this
    show ((rowDims N E K wf).operandIdx (ix2 e k) idx 0).val = (f e).val
    rw [this]
    omega
  | ⟨1, _⟩ => exact rowDims_operandIdx_col wf idx e k

end Cert.GNN.Lib

end
-- ==== Proof.RefValue.lean ====
/-
  The reference's result, element by element, is the specification's row value.

  Read from the result inwards: the last stage broadcasts a column; the column is the larger of zero and the second
  scale times a row sum; the row sum runs over the 256 entries of the row of x and 128 copies of the row's group
  statistic (gathered by the row's group word, which names a group, so the wrap-around select keeps the word); the
  statistic is the larger of zero and the first scale times the sum over the columns of the group's mean row, or of
  row 0 of x for an empty group; and the column sums and the counts are the two scatter-adds into zero arrays.
-/
import proofs.«405188_j45363444580781_3_alg».proof.Proof.RefRead
import proofs.«405188_j45363444580781_3_alg».proof.Proof.Spec
import proofs.«405188_j45363444580781_3_alg».proof.Proof.Consts
import proofs.«405188_j45363444580781_3_alg».proof.Proof.LibScatterRows
import proofs.«405188_j45363444580781_3_alg».proof.Proof.LibGather
import proofs.«405188_j45363444580781_3_alg».proof.Proof.Algebra
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

section
variable (x0 : (⟨S131072x256, .f32⟩ : BufTy).Contents (Elt Ideal)) (x1 : (⟨S131072, .i32⟩ : BufTy).Contents (Elt Ideal))
  (x2 x3 : (⟨S1, .f32⟩ : BufTy).Contents (Elt Ideal)) (f : Fin 131072 → Fin 64)
  (hf : ∀ n : Fin 131072, ((x1 : S131072.Idx → BitVec 32) (ix1 n)).toInt = ((f n).val : Int))

/-! ### The two scatter-adds: column sums and counts of a group -/

/-- The first scatter's index column at row e is row e's group word. -/
private theorem v1_at (e : Fin 131072) : ReadP.val_main_v1 (F := Ideal) x1 (ix2 e (0 : Fin 1)) = x1 (ix1 e) := by
  rw [ReadP.val_main_v1_apply]
  exact congrArg x1 (funext fun a => Fin.ext (by match a with | ⟨0, _⟩ => rfl))

/-- The second scatter's index column likewise. -/
private theorem v5_at (e : Fin 131072) : ReadP.val_main_v5 (F := Ideal) x1 (ix2 e (0 : Fin 1)) = x1 (ix1 e) := by
  rw [ReadP.val_main_v5_apply]
  exact congrArg x1 (funext fun a => Fin.ext (by match a with | ⟨0, _⟩ => rfl))

include hf in
/-- Rows of x added into a zero table by group word: entry (g, d) is column d summed over the rows of group g. -/
private theorem v2_at (g : Fin 64) (d : Fin 256) :
    ReadP.val_main_v2 (F := Ideal) x0 x1 (ix2 g d) = Cert.Spec.segSum x0 f g d := by
  unfold ReadP.val_main_v2
  simp only [Host.scatterAdd, Ideal.hostScatterAdd_def]
  rw [Cert.GNN.Lib.scatterAdd_rows scatter_S64x256_S131072x1_S131072x256_1_0_0_1 rfl rfl rfl rfl _ _ _ f
    (fun e => by rw [v1_at]; exact hf e) g d]
  rw [ReadP.val_main_v0_apply, ReadP.val_main_cst_apply, Ideal.ofBits_def, Ideal.ofBits_zero_f32, zero_add]
  rfl

include hf in
/-- Ones added into a zero vector by group word: entry g counts the rows of group g. -/
private theorem v6_at (g : Fin 64) : ReadP.val_main_v6 (F := Ideal) x1 (ix1 g) = Cert.Spec.segCnt f g := by
  unfold ReadP.val_main_v6
  simp only [Host.scatterAdd, Ideal.hostScatterAdd_def]
  rw [Cert.GNN.Lib.scatterAdd_vec scatter_S64_S131072x1_S131072_n_0_0_1 rfl rfl rfl rfl _ _ _ f
    (fun e => by rw [v5_at]; exact hf e) g]
  rw [ReadP.val_main_v4_apply, ReadP.val_main_cst_1_apply, Ideal.ofBits_def, Ideal.ofBits_zero_f32, zero_add]
  unfold Cert.Spec.segCnt
  refine Finset.sum_congr rfl fun e _ => ?_
  rw [ReadP.val_main_v3_apply, ReadP.val_main_cst_0_apply, Ideal.ofBits_def, Ideal.ofBits_one_f32]

include hf in
/-- The counts as a column. -/
private theorem v7_at (g : Fin 64) : ReadP.val_main_v7 (F := Ideal) x1 (ix2 g (0 : Fin 1)) = Cert.Spec.segCnt f g := by
  rw [ReadP.val_main_v7_apply]
  exact (congrArg (ReadP.val_main_v6 (F := Ideal) x1)
    (funext fun a => Fin.ext (by match a with | ⟨0, _⟩ => rfl))).trans (v6_at x1 f hf g)

/-! ### A group's mean row (or row 0 of x), and its statistic -/

include hf in
/-- Entry (g, d) of the selected table: the mean of column d over group g when the group has a row, else x[0, d]. -/
private theorem v17_at (g : Fin 64) (d : Fin 256) :
    ReadP.val_main_v17 (F := Ideal) x0 x1 (ix2 g d)
      = if 0 < Cert.Spec.segCnt f g then Ideal.div (Cert.Spec.segSum x0 f g d) (max (Cert.Spec.segCnt f g) 1)
        else x0 (ix2 0 d) := by
  have e1 : ReadP.idx_main_call0_v0 (ix2 g d : S64x256.Idx) = ix2 g (0 : Fin 1) :=
    funext fun a => Fin.ext (by match a with | ⟨0, _⟩ => rfl | ⟨1, _⟩ => rfl)
  have e2 : ReadP.idx_main_v12 (ix2 g d : S64x256.Idx) = ix2 g (0 : Fin 1) :=
    funext fun a => Fin.ext (by match a with | ⟨0, _⟩ => rfl | ⟨1, _⟩ => rfl)
  have e3 : ReadP.idx_main_v14 (ReadP.idx_main_v15 (ReadP.idx_main_v16 (ReadP.idx_main_call0_v1 (ix2 g d : S64x256.Idx))))
      = ix2 (0 : Fin 131072) d :=
    funext fun a => Fin.ext (by
      match a with
      | ⟨0, _⟩ => rfl
      | ⟨1, _⟩ => exact Nat.mod_eq_of_lt d.isLt)
  rw [ReadP.val_main_v17_apply, ReadP.val_main_call0_v0_apply, ReadP.val_main_v9_apply, ReadP.val_main_v8_apply,
    ReadP.val_main_cst_2_apply, ReadP.val_main_v13_apply, ReadP.val_main_v12_apply, ReadP.val_main_v11_apply,
    ReadP.val_main_v10_apply, ReadP.val_main_cst_3_apply, ReadP.val_main_call0_v1_apply, ReadP.val_main_v16_apply,
    ReadP.val_main_v15_apply, ReadP.val_main_v14_apply, e1, e2, e3, v7_at x1 f hf g, v2_at x0 x1 f hf g d]
  simp only [Ideal.ofBits_def, Ideal.ofBits_zero_f32, Ideal.ofBits_one_f32, Ideal.hostDivf_def, Ideal.maximumf_def,
    Ideal.cmpf_def, Ideal.cmp]
  by_cases h : 0 < Cert.Spec.segCnt f g
  · rw [if_pos h, decide_eq_true h]; exact select_one _ _
  · rw [if_neg h, decide_eq_false h]; exact select_zero _ _

/-- A one-entry vector recast as a scalar is its entry. -/
private theorem cast_scalar (y : (⟨S1, .f32⟩ : BufTy).Contents (Elt Ideal)) (j : S_.Idx) :
    shapeCast S_ y shapeCasts_S1_S_ j = y (ix1 0) := by
  have h1 : ((S1 : Shape).rowMajor (ix1 (0 : Fin 1))).val = 0 := by rw [Shape.rowMajor_val_one]; rfl
  have h2 : ((S_ : Shape).rowMajor j).val = 0 := Shape.rowMajorPi_zero _ j
  exact shapeCast_apply y shapeCasts_S1_S_ j (ix1 0) (h1.trans h2.symm)

include hf in
/-- Entry (g, 0) of the statistic column is the specification's statistic of group g. -/
private theorem v23_at (g : Fin 64) :
    ReadP.val_main_v23 (F := Ideal) x0 x1 x2 (ix2 g (0 : Fin 1)) = Cert.Spec.grpStat x0 f x2 g := by
  have es : ∀ d : Fin 256, ReadP.idx_main_v19 (ReadP.idx_main_v20 (ix2 g (0 : Fin 1) : S64x1.Idx)) d = ix2 g d :=
    fun d => funext fun a => Fin.ext (by match a with | ⟨0, _⟩ => rfl | ⟨1, _⟩ => rfl)
  rw [ReadP.val_main_v23_apply, ReadP.val_main_v22_apply, ReadP.val_main_v21_apply, ReadP.val_main_v20_apply,
    ReadP.val_main_v19_apply, ReadP.val_main_cst_4_apply, ReadP.val_main_call1_v0_apply, ReadP.val_main_call1_cst_apply]
  unfold ReadP.val_main_v18
  rw [cast_scalar x2]
  rw [Finset.sum_congr rfl fun d _ => (congrArg (ReadP.val_main_v17 (F := Ideal) x0 x1) (es d)).trans (v17_at x0 x1 f hf g d)]
  simp only [Ideal.ofBits_def, Ideal.ofBits_zero_f32, Ideal.mulf_def, Ideal.maximumf_def, zero_add]
  rfl

/-! ### The gathered statistic, the concatenated row and its sum -/

include hf in
/-- The gather's index word of row e is the row's group word: it is not negative, so the wrap-around keeps it. -/
private theorem v30_at (e : Fin 131072) :
    (ReadP.val_main_v30 (F := Ideal) x1 (ix2 e (0 : Fin 1))).toInt = ((f e).val : Int) := by
  have e1 : ReadP.idx_main_v30 (ix2 e (0 : Fin 1) : S131072x1.Idx) = ix1 e :=
    funext fun a => Fin.ext (by match a with | ⟨0, _⟩ => rfl)
  have hz : IntOp.cmpi .slt (x1 (ix1 e)) 0#32 = 0#1 := by
    have hs : (x1 (ix1 e)).slt 0#32 = false := by
      rw [BitVec.slt_eq_decide, hf e, BitVec.toInt_zero]
      exact decide_eq_false (by omega)
    show BitVec.ofBool ((x1 (ix1 e)).slt 0#32) = 0#1
    rw [hs]; rfl
  rw [ReadP.val_main_v30_apply, e1, ReadP.val_main_v29_apply, ReadP.val_main_v26_apply, ReadP.val_main_v25_apply,
    ReadP.val_main_c_apply, hz, select_zero]
  exact hf e

include hf in
/-- Row n of the gathered table holds the statistic of row n's group in every column. -/
private theorem v31_at (n : Fin 131072) (k : Fin 128) :
    ReadP.val_main_v31 (F := Ideal) x0 x1 x2 (ix2 n k) = Cert.Spec.grpStat x0 f x2 (f n) := by
  unfold ReadP.val_main_v31
  rw [Cert.GNN.Lib.gather_rows gather_S64x128_S131072x1_S131072x128_1_0_n_n_0_1_1128 rfl rfl rfl rfl rfl rfl rfl _ _ f
    (v30_at x1 f hf) n k, ReadP.val_main_v24_apply]
  exact (congrArg (ReadP.val_main_v23 (F := Ideal) x0 x1 x2)
    (funext fun a => Fin.ext (by match a with | ⟨0, _⟩ => rfl | ⟨1, _⟩ => rfl))).trans (v23_at x0 x1 x2 f hf (f n))

/-- The first 256 entries of a concatenated row are the row of x … -/
private theorem v32_left (n : Fin 131072) (d : Fin 256) :
    ReadP.val_main_v32 (F := Ideal) x0 x1 x2 (ix2 n (⟨d.val, by omega⟩ : Fin 384)) = x0 (ix2 n d) := by
  unfold ReadP.val_main_v32
  exact concatenate_pair_apply_left 1 x0 _ concatenates_S131072x256_S131072x128_S131072x384_d1 _ rfl (ix2 n d)
    (fun b => by match b with | ⟨0, _⟩ => rfl | ⟨1, _⟩ => rfl)

/-- … and the last 128 the row of the gathered table. -/
private theorem v32_right (n : Fin 131072) (j : Fin 128) :
    ReadP.val_main_v32 (F := Ideal) x0 x1 x2 (ix2 n (⟨256 + j.val, by omega⟩ : Fin 384))
      = ReadP.val_main_v31 (F := Ideal) x0 x1 x2 (ix2 n j) := by
  unfold ReadP.val_main_v32
  exact concatenate_pair_apply_right 1 x0 _ concatenates_S131072x256_S131072x128_S131072x384_d1 _ rfl rfl (ix2 n j)
    (fun b hb => by match b with | ⟨0, _⟩ => rfl | ⟨1, _⟩ => exact absurd rfl hb)
    (by show j.val + 256 = 256 + j.val; omega)

/-- A sum over 384 positions is the sum over the first 256 plus the sum over the last 128. -/
private theorem sum_384 (G : Fin 384 → EReal) :
    ∑ k : Fin 384, G k = ∑ d : Fin 256, G ⟨d.val, by omega⟩ + ∑ j : Fin 128, G ⟨256 + j.val, by omega⟩ :=
  Fin.sum_univ_add (a := 256) (b := 128) G

include hf in
/-- The sum of concatenated row n: the row of x summed, plus 128 times the statistic of the row's group. -/
private theorem v34_at (n : Fin 131072) :
    ReadP.val_main_v34 (F := Ideal) x0 x1 x2 (ix1 n)
      = ∑ d : Fin 256, x0 (ix2 n d) + ((128 : ℝ) : EReal) * Cert.Spec.grpStat x0 f x2 (f n) := by
  have ek : ∀ k : Fin 384, ReadP.idx_main_v34 (ix1 n : S131072.Idx) k = ix2 n k :=
    fun k => funext fun a => Fin.ext (by match a with | ⟨0, _⟩ => rfl | ⟨1, _⟩ => rfl)
  rw [ReadP.val_main_v34_apply, ReadP.val_main_cst_6_apply, Ideal.ofBits_def, Ideal.ofBits_zero_f32, zero_add,
    Finset.sum_congr rfl fun k _ => congrArg (ReadP.val_main_v32 (F := Ideal) x0 x1 x2) (ek k), sum_384,
    ← Cert.Algebra.sum_const_128]
  congr 1
  · exact Finset.sum_congr rfl fun d _ => v32_left x0 x1 x2 n d
  · exact Finset.sum_congr rfl fun j _ => (v32_right x0 x1 x2 n j).trans (v31_at x0 x1 x2 f hf n j)

end

/-- Element (n, j) of the reference's last stage, when every group word names a group. -/
theorem result_at (x0 : (⟨S131072x256, .f32⟩ : BufTy).Contents (Elt Ideal)) (x1 : (⟨S131072, .i32⟩ : BufTy).Contents (Elt Ideal))
    (x2 x3 : (⟨S1, .f32⟩ : BufTy).Contents (Elt Ideal)) (f : Fin 131072 → Fin 64)
    (hf : ∀ n : Fin 131072, ((x1 : S131072.Idx → BitVec 32) (ix1 n)).toInt = ((f n).val : Int))
    (n : Fin 131072) (j : Fin 256) :
    Cert.ReferenceIdeal.ReadP.val_main_v39 (F := Ideal) x0 x1 x2 x3 (ix2 n j) = Cert.Spec.resultAt x0 f x2 x3 n := by
  have e1 : ReadP.idx_main_v35 (ReadP.idx_main_v39 (ix2 n j : S131072x256.Idx)) = ix1 n :=
    funext fun a => Fin.ext (by match a with | ⟨0, _⟩ => rfl)
  rw [ReadP.val_main_v39_apply, ReadP.val_main_v38_apply, ReadP.val_main_v37_apply, ReadP.val_main_v36_apply,
    ReadP.val_main_v35_apply, ReadP.val_main_call2_v0_apply, ReadP.val_main_call2_cst_apply, e1,
    v34_at x0 x1 x2 f hf n]
  unfold ReadP.val_main_v33
  rw [cast_scalar x3]
  simp only [Ideal.ofBits_def, Ideal.ofBits_zero_f32, Ideal.mulf_def, Ideal.maximumf_def]
  rfl

end Cert.ReferenceIdeal.RefValue

end
-- ==== Proof.PreDecode.lean ====
/-
  What the precondition says of the group words: every one is in the range 0 … 63.
-/
import proofs.«405188_j45363444580781_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.PreDecode

/-- The scalar shape has one index. -/
instance : Subsingleton Cert.Pre_finite_inputs.S_.Idx := ⟨fun a b => funext fun d => d.elim0⟩

/-- A one-bit word is 1 exactly when the Boolean it was made from is true. -/
private theorem ofBool_eq_one (b : Bool) : BitVec.ofBool b = 1#1 ↔ b = true := by cases b <;> decide

/-- A word that is at least 0 and below 64 as a signed integer. -/
private theorem range_of_bits (w : BitVec 32) (h0 : IntOp.cmpi .sge w (0#32) = 1#1)
    (h64 : IntOp.cmpi .slt w (64#32) = 1#1) : 0 ≤ w.toInt ∧ w.toInt < 64 := by
  unfold IntOp.cmpi at h0 h64
  rw [ofBool_eq_one] at h0 h64
  simp only [BitVec.slt, BitVec.sle, decide_eq_true_eq] at h0 h64
  have e0 : (0#32 : BitVec 32).toInt = 0 := by decide
  have e64 : (64#32 : BitVec 32).toInt = 64 := by decide
  rw [e0] at h0
  rw [e64] at h64
  exact ⟨h0, h64⟩

/-- Under the precondition every group word, read as a signed integer, lies in 0 … 63. -/
theorem sub_range [Cert.Pre_finite_inputs.Facts]
    (x0 : FVec Ideal Cert.Pre_finite_inputs.S131072x256 .f32) (x1 : IVec Cert.Pre_finite_inputs.S131072 32)
    (x2 x3 : FVec Ideal Cert.Pre_finite_inputs.S1 .f32)
    (h : Cert.Pre_finite_inputs.fn (F := Ideal) x0 x1 x2 x3 = fun _ => 1#1) (n : Fin 131072) :
    0 ≤ (x1 (ix1 n)).toInt ∧ (x1 (ix1 n)).toInt < 64 := by
  have e := congrFun h ix0
  dsimp only [Cert.Pre_finite_inputs.fn, Cert.Pre_finite_inputs.fn_part1] at e
  have e2 := (IntOp.andi_eq_one.1 e).2
  have e3 := Host.reduce_andi_all _ _ _ _ _ e2 (ix1 n)
  have e4 := IntOp.andi_eq_one.1 e3
  exact range_of_bits _ e4.1 e4.2

end Cert.PreDecode

end
-- ==== Proof.lean ====
/-
  The kernel (a two-call streaming segment mean: the first call accumulates, per half of the rows, the one-hot
  matrix product that sums every group's rows and counts them, and each row's own sum; the host forms each group's
  mean row, its statistic max (Gamma · Σ mean) 0, and adds 128 times the row's group statistic to the row's own sum;
  the second call writes max (Lambda · total) 0 across each row) against its jnp reference (two segment sums, the mean,
  the statistic gathered per row and concatenated 128 times beside the row, one sum over the 384 entries, the same
  final max).

  Over the extended reals both compute, in row n, max (Lambda · (Σ_d x[n, d] + 128 · stat (group of n))) 0:
  a sum of 128 equal terms is 128 times the term, the one-hot product selects the group's rows, and sums may be
  regrouped freely. The statement holds where every group word lies in 0 … 63 (the range of the table the
  reference indexes); the precondition says so, and finiteness of the float inputs is not used.
-/
import proofs.«405188_j45363444580781_3_alg».proof.Defs
import proofs.«405188_j45363444580781_3_alg».proof.Proof.Gen.Kernel
import proofs.«405188_j45363444580781_3_alg».proof.Proof.Gen.Kernel.Skeleton
import proofs.«405188_j45363444580781_3_alg».proof.Proof.Gen.Kernel.Launch
import proofs.«405188_j45363444580781_3_alg».proof.Proof.Gen.Kernel.Points
import proofs.«405188_j45363444580781_3_alg».proof.Proof.Gen.Kernel.Frame
import proofs.«405188_j45363444580781_3_alg».proof.Proof.Gen.KernelIdeal
import proofs.«405188_j45363444580781_3_alg».proof.Proof.Gen.KernelIdeal.Skeleton
import proofs.«405188_j45363444580781_3_alg».proof.Proof.Gen.KernelIdeal.Launch
import proofs.«405188_j45363444580781_3_alg».proof.Proof.Gen.KernelIdeal.Points
import proofs.«405188_j45363444580781_3_alg».proof.Proof.Gen.KernelIdeal.Frame
import proofs.«405188_j45363444580781_3_alg».proof.Proof.Gen.ReferenceIdeal
import proofs.«405188_j45363444580781_3_alg».proof.Proof.Gen.Pre_finite_inputs
import proofs.«405188_j45363444580781_3_alg».proof.Proof.KRun
import proofs.«405188_j45363444580781_3_alg».proof.Proof.KValue
import proofs.«405188_j45363444580781_3_alg».proof.Proof.RefValue
import proofs.«405188_j45363444580781_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

open Cert.KernelIdeal.Arr in
/-- From memories agreeing on the arguments both programs end with row n of the result at
    max (Lambda · (Σ_d x[n, d] + 128 · stat (group of n))) 0 in every column. -/
theorem algebraic : Cert.algebraic_KernelIdeal_ReferenceIdeal := by
  intro m ρ m' ρ' hpre hagree
  -- every group word names one of the 64 groups
  have hr : ∀ (c : Dev Cert.KernelIdeal.nD) (n : Fin 131072),
      0 ≤ (subArr m c (ix1 n)).toInt ∧ (subArr m c (ix1 n)).toInt < 64 :=
    fun c n => Cert.PreDecode.sub_range _ _ _ _ (hpre c) n
  let f : Dev Cert.KernelIdeal.nD → Fin 131072 → Fin 64 := fun c n =>
    ⟨(subArr m c (ix1 n)).toInt.toNat, by have := hr c n; omega⟩
  have hf : ∀ (c : Dev Cert.KernelIdeal.nD) (n : Fin 131072), (subArr m c (ix1 n)).toInt = ((f c n).val : Int) :=
    fun c n => by have := hr c n; show _ = (((subArr m c (ix1 n)).toInt.toNat : Nat) : Int); omega
  refine ⟨fun c => fun i => Cert.Spec.resultAt (xArr m c) (f c) (gamArr m c) (lamArr m c) (i 0), ?_, ?_⟩
  · refine (θ_run Cert.KernelIdeal.defs _ _).mono (fun _ h c => ⟨(h c).1.trans ?_, (h c).2⟩)
      (Cert.KernelIdeal.RunP.run_named (F := Ideal) m ρ)
    funext i
    rw [eq_ix2 i]
    exact Cert.KernelIdeal.KValue.kernel_at m ρ c (f c) (hf c) (i 0) (i 1)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v39_eq, (hagree c).1, (hagree c).2.1, (hagree c).2.2.1, (hagree c).2.2.2]
    funext i
    rw [eq_ix2 i]
    exact Cert.ReferenceIdeal.RefValue.result_at _ _ _ _ (f c) (hf c) (i 0) (i 1)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
